-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S1024x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v220)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v220) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v209) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S10x512 : Shape := ⟨2, ![10, 512]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S10x512 : S_.BroadcastsInDim S10x512 (![] : Fin 0 → Fin S10x512.rank)
  reducesTo_S10x512_S_d0_1 : S10x512.ReducesTo [0, 1] S_

variable [Facts]

def fn {F : FTy → Type} [FloatOps F] (main_arg0 : FVec F S16384x1024 .f32) (main_arg1 : FVec F S10x512 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S10x512 .f32 := Host.absf main_arg1
  let main_cst_0 : FVec F S_ .f32 := constant S_ .f32 0x7F800000#32
  let main_v5 : FVec F S10x512 .f32 := broadcastInDim S10x512 ![] bcast_S_S10x512 main_cst_0
  let main_v6 : IVec S10x512 1 := cmpf .olt main_v4 main_v5
  let main_c_1 : IVec S_ 1 := constantI S_ 1 1#1
  let main_v7 : IVec S_ 1 := (fun x v => Host.reduce IntOp.andi x v reducesTo_S10x512_S_d0_1 h_S_) main_v6 main_c_1
  let main_v8 : IVec S_ 1 := andi main_v3 main_v7
  main_v8
-- ==== Kernel.lean ====
abbrev S16384x1024 : Shape := ⟨2, ![16384, 1024]⟩
abbrev S10x512 : Shape := ⟨2, ![10, 512]⟩
abbrev S1024x1024 : Shape := ⟨2, ![1024, 1024]⟩
abbrev S_ : Shape := ⟨0, ![]⟩
abbrev S1024x512x2 : Shape := ⟨3, ![1024, 512, 2]⟩
abbrev S1024x512x1 : Shape := ⟨3, ![1024, 512, 1]⟩
abbrev S1x512 : Shape := ⟨2, ![1, 512]⟩
abbrev S512 : Shape := ⟨1, ![512]⟩
abbrev S1x512x1 : Shape := ⟨3, ![1, 512, 1]⟩
abbrev S1024x256x4 : Shape := ⟨3, ![1024, 256, 4]⟩
abbrev S1024x256x2 : Shape := ⟨3, ![1024, 256, 2]⟩
abbrev S1x256x2 : Shape := ⟨3, ![1, 256, 2]⟩
abbrev S1024x128x8 : Shape := ⟨3, ![1024, 128, 8]⟩
abbrev S1024x128x4 : Shape := ⟨3, ![1024, 128, 4]⟩
abbrev S1x128x4 : Shape := ⟨3, ![1, 128, 4]⟩
abbrev S1024x64x16 : Shape := ⟨3, ![1024, 64, 16]⟩
abbrev S1024x64x8 : Shape := ⟨3, ![1024, 64, 8]⟩
abbrev S1x64x8 : Shape := ⟨3, ![1, 64, 8]⟩
abbrev S1024x32x32 : Shape := ⟨3, ![1024, 32, 32]⟩
abbrev S1024x32x16 : Shape := ⟨3, ![1024, 32, 16]⟩
abbrev S1x32x16 : Shape := ⟨3, ![1, 32, 16]⟩
abbrev S1024x16x64 : Shape := ⟨3, ![1024, 16, 64]⟩
abbrev S1024x16x32 : Shape := ⟨3, ![1024, 16, 32]⟩
abbrev S1x16x32 : Shape := ⟨3, ![1, 16, 32]⟩
abbrev S1024x8x128 : Shape := ⟨3, ![1024, 8, 128]⟩
abbrev S1024x8x64 : Shape := ⟨3, ![1024, 8, 64]⟩
abbrev S1x8x64 : Shape := ⟨3, ![1, 8, 64]⟩
abbrev S1024x4x256 : Shape := ⟨3, ![1024, 4, 256]⟩
abbrev S1024x4x128 : Shape := ⟨3, ![1024, 4, 128]⟩
abbrev S1x4x128 : Shape := ⟨3, ![1, 4, 128]⟩
abbrev S1024x2x512 : Shape := ⟨3, ![1024, 2, 512]⟩
abbrev S1024x2x256 : Shape := ⟨3, ![1024, 2, 256]⟩
abbrev S1x2x256 : Shape := ⟨3, ![1, 2, 256]⟩
abbrev S1024x1x1024 : Shape := ⟨3, ![1024, 1, 1024]⟩
abbrev S1024x1x512 : Shape := ⟨3, ![1024, 1, 512]⟩
abbrev S1x1x512 : Shape := ⟨3, ![1, 1, 512]⟩

abbrev nBuf : Space → Nat
  | .hbm => 224
  | .vmem => 6
  | .smem => 0
  | _ => 0

abbrev hbmTy0_0 (i : Nat) : BufTy := match i % 128 with
  | 0 => ⟨S16384x1024, .f32⟩
  | 1 => ⟨S10x512, .f32⟩
  | 2 => ⟨S1024x1024, .i32⟩
  | 3 => ⟨S1024x1024, .i32⟩
  | 4 => ⟨S_, .i32⟩
  | 5 => ⟨S1024x1024, .i32⟩
  | 6 => ⟨S1024x1024, .i32⟩
  | 7 => ⟨S1024x1024, .i1⟩
  | 8 => ⟨S1024x1024, .f32⟩
  | 9 => ⟨S1024x512x2, .f32⟩
  | 10 => ⟨S1024x512x1, .f32⟩
  | 11 => ⟨S1024x512x1, .f32⟩
  | 12 => ⟨S1x512, .f32⟩
  | 13 => ⟨S512, .f32⟩
  | 14 => ⟨S1x512x1, .f32⟩
  | 15 => ⟨S1x512x1, .f32⟩
  | 16 => ⟨S1x512x1, .f32⟩
  | 17 => ⟨S1024x512x1, .f32⟩
  | 18 => ⟨S1024x512x1, .f32⟩
  | 19 => ⟨S1024x512x1, .f32⟩
  | 20 => ⟨S1024x512x1, .f32⟩
  | 21 => ⟨S1024x512x1, .f32⟩
  | 22 => ⟨S1x512x1, .f32⟩
  | 23 => ⟨S1024x512x1, .f32⟩
  | 24 => ⟨S1024x512x1, .f32⟩
  | 25 => ⟨S1024x512x1, .f32⟩
  | 26 => ⟨S1024x512x1, .f32⟩
  | 27 => ⟨S1024x512x1, .f32⟩
  | 28 => ⟨S1024x512x2, .f32⟩
  | 29 => ⟨S1024x1024, .f32⟩
  | 30 => ⟨S1024x256x4, .f32⟩
  | 31 => ⟨S1024x256x2, .f32⟩
  | 32 => ⟨S1024x256x2, .f32⟩
  | 33 => ⟨S1x512, .f32⟩
  | 34 => ⟨S512, .f32⟩
  | 35 => ⟨S1x256x2, .f32⟩
  | 36 => ⟨S1x256x2, .f32⟩
  | 37 => ⟨S1x256x2, .f32⟩
  | 38 => ⟨S1024x256x2, .f32⟩
  | 39 => ⟨S1024x256x2, .f32⟩
  | 40 => ⟨S1024x256x2, .f32⟩
  | 41 => ⟨S1024x256x2, .f32⟩
  | 42 => ⟨S1024x256x2, .f32⟩
  | 43 => ⟨S1x256x2, .f32⟩
  | 44 => ⟨S1024x256x2, .f32⟩
  | 45 => ⟨S1024x256x2, .f32⟩
  | 46 => ⟨S1024x256x2, .f32⟩
  | 47 => ⟨S1024x256x2, .f32⟩
  | 48 => ⟨S1024x256x2, .f32⟩
  | 49 => ⟨S1024x256x4, .f32⟩
  | 50 => ⟨S1024x1024, .f32⟩
  | 51 => ⟨S1024x128x8, .f32⟩
  | 52 => ⟨S1024x128x4, .f32⟩
  | 53 => ⟨S1024x128x4, .f32⟩
  | 54 => ⟨S1x512, .f32⟩
  | 55 => ⟨S512, .f32⟩
  | 56 => ⟨S1x128x4, .f32⟩
  | 57 => ⟨S1x128x4, .f32⟩
  | 58 => ⟨S1x128x4, .f32⟩
  | 59 => ⟨S1024x128x4, .f32⟩
  | 60 => ⟨S1024x128x4, .f32⟩
  | 61 => ⟨S1024x128x4, .f32⟩
  | 62 => ⟨S1024x128x4, .f32⟩
  | 63 => ⟨S1024x128x4, .f32⟩
  | 64 => ⟨S1x128x4, .f32⟩
  | 65 => ⟨S1024x128x4, .f32⟩
  | 66 => ⟨S1024x128x4, .f32⟩
  | 67 => ⟨S1024x128x4, .f32⟩
  | 68 => ⟨S1024x128x4, .f32⟩
  | 69 => ⟨S1024x128x4, .f32⟩
  | 70 => ⟨S1024x128x8, .f32⟩
  | 71 => ⟨S1024x1024, .f32⟩
  | 72 => ⟨S1024x64x16, .f32⟩
  | 73 => ⟨S1024x64x8, .f32⟩
  | 74 => ⟨S1024x64x8, .f32⟩
  | 75 => ⟨S1x512, .f32⟩
  | 76 => ⟨S512, .f32⟩
  | 77 => ⟨S1x64x8, .f32⟩
  | 78 => ⟨S1x64x8, .f32⟩
  | 79 => ⟨S1x64x8, .f32⟩
  | 80 => ⟨S1024x64x8, .f32⟩
  | 81 => ⟨S1024x64x8, .f32⟩
  | 82 => ⟨S1024x64x8, .f32⟩
  | 83 => ⟨S1024x64x8, .f32⟩
  | 84 => ⟨S1024x64x8, .f32⟩
  | 85 => ⟨S1x64x8, .f32⟩
  | 86 => ⟨S1024x64x8, .f32⟩
  | 87 => ⟨S1024x64x8, .f32⟩
  | 88 => ⟨S1024x64x8, .f32⟩
  | 89 => ⟨S1024x64x8, .f32⟩
  | 90 => ⟨S1024x64x8, .f32⟩
  | 91 => ⟨S1024x64x16, .f32⟩
  | 92 => ⟨S1024x1024, .f32⟩
  | 93 => ⟨S1024x32x32, .f32⟩
  | 94 => ⟨S1024x32x16, .f32⟩
  | 95 => ⟨S1024x32x16, .f32⟩
  | 96 => ⟨S1x512, .f32⟩
  | 97 => ⟨S512, .f32⟩
  | 98 => ⟨S1x32x16, .f32⟩
  | 99 => ⟨S1x32x16, .f32⟩
  | 100 => ⟨S1x32x16, .f32⟩
  | 101 => ⟨S1024x32x16, .f32⟩
  | 102 => ⟨S1024x32x16, .f32⟩
  | 103 => ⟨S1024x32x16, .f32⟩
  | 104 => ⟨S1024x32x16, .f32⟩
  | 105 => ⟨S1024x32x16, .f32⟩
  | 106 => ⟨S1x32x16, .f32⟩
  | 107 => ⟨S1024x32x16, .f32⟩
  | 108 => ⟨S1024x32x16, .f32⟩
  | 109 => ⟨S1024x32x16, .f32⟩
  | 110 => ⟨S1024x32x16, .f32⟩
  | 111 => ⟨S1024x32x16, .f32⟩
  | 112 => ⟨S1024x32x32, .f32⟩
  | 113 => ⟨S1024x1024, .f32⟩
  | 114 => ⟨S1024x16x64, .f32⟩
  | 115 => ⟨S1024x16x32, .f32⟩
  | 116 => ⟨S1024x16x32, .f32⟩
  | 117 => ⟨S1x512, .f32⟩
  | 118 => ⟨S512, .f32⟩
  | 119 => ⟨S1x16x32, .f32⟩
  | 120 => ⟨S1x16x32, .f32⟩
  | 121 => ⟨S1x16x32, .f32⟩
  | 122 => ⟨S1024x16x32, .f32⟩
  | 123 => ⟨S1024x16x32, .f32⟩
  | 124 => ⟨S1024x16x32, .f32⟩
  | 125 => ⟨S1024x16x32, .f32⟩
  | 126 => ⟨S1024x16x32, .f32⟩
  | 127 => ⟨S1x16x32, .f32⟩
  | _ => ⟨S16384x1024, .f32⟩

abbrev hbmTy0_1 (i : Nat) : BufTy := match i % 128 with
  | 0 => ⟨S1024x16x32, .f32⟩
  | 1 => ⟨S1024x16x32, .f32⟩
  | 2 => ⟨S1024x16x32, .f32⟩
  | 3 => ⟨S1024x16x32, .f32⟩
  | 4 => ⟨S1024x16x32, .f32⟩
  | 5 => ⟨S1024x16x64, .f32⟩
  | 6 => ⟨S1024x1024, .f32⟩
  | 7 => ⟨S1024x8x128, .f32⟩
  | 8 => ⟨S1024x8x64, .f32⟩
  | 9 => ⟨S1024x8x64, .f32⟩
  | 10 => ⟨S1x512, .f32⟩
  | 11 => ⟨S512, .f32⟩
  | 12 => ⟨S1x8x64, .f32⟩
  | 13 => ⟨S1x8x64, .f32⟩
  | 14 => ⟨S1x8x64, .f32⟩
  | 15 => ⟨S1024x8x64, .f32⟩
  | 16 => ⟨S1024x8x64, .f32⟩
  | 17 => ⟨S1024x8x64, .f32⟩
  | 18 => ⟨S1024x8x64, .f32⟩
  | 19 => ⟨S1024x8x64, .f32⟩
  | 20 => ⟨S1x8x64, .f32⟩
  | 21 => ⟨S1024x8x64, .f32⟩
  | 22 => ⟨S1024x8x64, .f32⟩
  | 23 => ⟨S1024x8x64, .f32⟩
  | 24 => ⟨S1024x8x64, .f32⟩
  | 25 => ⟨S1024x8x64, .f32⟩
  | 26 => ⟨S1024x8x128, .f32⟩
  | 27 => ⟨S1024x1024, .f32⟩
  | 28 => ⟨S1024x4x256, .f32⟩
  | 29 => ⟨S1024x4x128, .f32⟩
  | 30 => ⟨S1024x4x128, .f32⟩
  | 31 => ⟨S1x512, .f32⟩
  | 32 => ⟨S512, .f32⟩
  | 33 => ⟨S1x4x128, .f32⟩
  | 34 => ⟨S1x4x128, .f32⟩
  | 35 => ⟨S1x4x128, .f32⟩
  | 36 => ⟨S1024x4x128, .f32⟩
  | 37 => ⟨S1024x4x128, .f32⟩
  | 38 => ⟨S1024x4x128, .f32⟩
  | 39 => ⟨S1024x4x128, .f32⟩
  | 40 => ⟨S1024x4x128, .f32⟩
  | 41 => ⟨S1x4x128, .f32⟩
  | 42 => ⟨S1024x4x128, .f32⟩
  | 43 => ⟨S1024x4x128, .f32⟩
  | 44 => ⟨S1024x4x128, .f32⟩
  | 45 => ⟨S1024x4x128, .f32⟩
  | 46 => ⟨S1024x4x128, .f32⟩
  | 47 => ⟨S1024x4x256, .f32⟩
  | 48 => ⟨S1024x1024, .f32⟩
  | 49 => ⟨S1024x2x512, .f32⟩
  | 50 => ⟨S1024x2x256, .f32⟩
  | 51 => ⟨S1024x2x256, .f32⟩
  | 52 => ⟨S1x512, .f32⟩
  | 53 => ⟨S512, .f32⟩
  | 54 => ⟨S1x2x256, .f32⟩
  | 55 => ⟨S1x2x256, .f32⟩
  | 56 => ⟨S1x2x256, .f32⟩
  | 57 => ⟨S1024x2x256, .f32⟩
  | 58 => ⟨S1024x2x256, .f32⟩
  | 59 => ⟨S1024x2x256, .f32⟩
  | 60 => ⟨S1024x2x256, .f32⟩
  | 61 => ⟨S1024x2x256, .f32⟩
  | 62 => ⟨S1x2x256, .f32⟩
  | 63 => ⟨S1024x2x256, .f32⟩
  | 64 => ⟨S1024x2x256, .f32⟩
  | 65 => ⟨S1024x2x256, .f32⟩
  | 66 => ⟨S1024x2x256, .f32⟩
  | 67 => ⟨S1024x2x256, .f32⟩
  | 68 => ⟨S1024x2x512, .f32⟩
  | 69 => ⟨S1024x1024, .f32⟩
  | 70 => ⟨S1024x1x1024, .f32⟩
  | 71 => ⟨S1024x1x512, .f32⟩
  | 72 => ⟨S1024x1x512, .f32⟩
  | 73 => ⟨S1x512, .f32⟩
  | 74 => ⟨S512, .f32⟩
  | 75 => ⟨S1x1x512, .f32⟩
  | 76 => ⟨S1x1x512, .f32⟩
  | 77 => ⟨S1x1x512, .f32⟩
  | 78 => ⟨S1024x1x512, .f32⟩
  | 79 => ⟨S1024x1x512, .f32⟩
  | 80 => ⟨S1024x1x512, .f32⟩
  | 81 => ⟨S1024x1x512, .f32⟩
  | 82 => ⟨S1024x1x512, .f32⟩
  | 83 => ⟨S1x1x512, .f32⟩
  | 84 => ⟨S1024x1x512, .f32⟩
  | 85 => ⟨S1024x1x512, .f32⟩
  | 86 => ⟨S1024x1x512, .f32⟩
  | 87 => ⟨S1024x1x512, .f32⟩
  | 88 => ⟨S1024x1x512, .f32⟩
  | 89 => ⟨S1024x1x1024, .f32⟩
  | 90 => ⟨S1024x1024, .f32⟩
  | 91 => ⟨S1024x1024, .bf16⟩
  | 92 => ⟨S1024x1024, .f32⟩
  | 93 => ⟨S1024x1024, .f32⟩
  | 94 => ⟨S1024x1024, .bf16⟩
  | 95 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_v85 : Ref sig .tc := ⟨.hbm, 88, rfl⟩
abbrev main_v86 : Ref sig .tc := ⟨.hbm, 89, rfl⟩
abbrev main_v87 : Ref sig .tc := ⟨.hbm, 90, rfl⟩
abbrev main_v88 : Ref sig .tc := ⟨.hbm, 91, rfl⟩
abbrev main_v89 : Ref sig .tc := ⟨.hbm, 92, rfl⟩
abbrev main_v90 : Ref sig .tc := ⟨.hbm, 93, rfl⟩
abbrev main_v91 : Ref sig .tc := ⟨.hbm, 94, rfl⟩
abbrev main_v92 : Ref sig .tc := ⟨.hbm, 95, rfl⟩
abbrev main_v93 : Ref sig .tc := ⟨.hbm, 96, rfl⟩
abbrev main_v94 : Ref sig .tc := ⟨.hbm, 97, rfl⟩
abbrev main_v95 : Ref sig .tc := ⟨.hbm, 98, rfl⟩
abbrev main_v96 : Ref sig .tc := ⟨.hbm, 99, rfl⟩
abbrev main_v97 : Ref sig .tc := ⟨.hbm, 100, rfl⟩
abbrev main_v98 : Ref sig .tc := ⟨.hbm, 101, rfl⟩
abbrev main_v99 : Ref sig .tc := ⟨.hbm, 102, rfl⟩
abbrev main_v100 : Ref sig .tc := ⟨.hbm, 103, rfl⟩
abbrev main_v101 : Ref sig .tc := ⟨.hbm, 104, rfl⟩
abbrev main_v102 : Ref sig .tc := ⟨.hbm, 105, rfl⟩
abbrev main_v103 : Ref sig .tc := ⟨.hbm, 106, rfl⟩
abbrev main_v104 : Ref sig .tc := ⟨.hbm, 107, rfl⟩
abbrev main_v105 : Ref sig .tc := ⟨.hbm, 108, rfl⟩
abbrev main_v106 : Ref sig .tc := ⟨.hbm, 109, rfl⟩
abbrev main_v107 : Ref sig .tc := ⟨.hbm, 110, rfl⟩
abbrev main_v108 : Ref sig .tc := ⟨.hbm, 111, rfl⟩
abbrev main_v109 : Ref sig .tc := ⟨.hbm, 112, rfl⟩
abbrev main_v110 : Ref sig .tc := ⟨.hbm, 113, rfl⟩
abbrev main_v111 : Ref sig .tc := ⟨.hbm, 114, rfl⟩
abbrev main_v112 : Ref sig .tc := ⟨.hbm, 115, rfl⟩
abbrev main_v113 : Ref sig .tc := ⟨.hbm, 116, rfl⟩
abbrev main_v114 : Ref sig .tc := ⟨.hbm, 117, rfl⟩
abbrev main_v115 : Ref sig .tc := ⟨.hbm, 118, rfl⟩
abbrev main_v116 : Ref sig .tc := ⟨.hbm, 119, rfl⟩
abbrev main_v117 : Ref sig .tc := ⟨.hbm, 120, rfl⟩
abbrev main_v118 : Ref sig .tc := ⟨.hbm, 121, rfl⟩
abbrev main_v119 : Ref sig .tc := ⟨.hbm, 122, rfl⟩
abbrev main_v120 : Ref sig .tc := ⟨.hbm, 123, rfl⟩
abbrev main_v121 : Ref sig .tc := ⟨.hbm, 124, rfl⟩
abbrev main_v122 : Ref sig .tc := ⟨.hbm, 125, rfl⟩
abbrev main_v123 : Ref sig .tc := ⟨.hbm, 126, rfl⟩
abbrev main_v124 : Ref sig .tc := ⟨.hbm, 127, rfl⟩
abbrev main_v125 : Ref sig .tc := ⟨.hbm, 128, rfl⟩
abbrev main_v126 : Ref sig .tc := ⟨.hbm, 129, rfl⟩
abbrev main_v127 : Ref sig .tc := ⟨.hbm, 130, rfl⟩
abbrev main_v128 : Ref sig .tc := ⟨.hbm, 131, rfl⟩
abbrev main_v129 : Ref sig .tc := ⟨.hbm, 132, rfl⟩
abbrev main_v130 : Ref sig .tc := ⟨.hbm, 133, rfl⟩
abbrev main_v131 : Ref sig .tc := ⟨.hbm, 134, rfl⟩
abbrev main_v132 : Ref sig .tc := ⟨.hbm, 135, rfl⟩
abbrev main_v133 : Ref sig .tc := ⟨.hbm, 136, rfl⟩
abbrev main_v134 : Ref sig .tc := ⟨.hbm, 137, rfl⟩
abbrev main_v135 : Ref sig .tc := ⟨.hbm, 138, rfl⟩
abbrev main_v136 : Ref sig .tc := ⟨.hbm, 139, rfl⟩
abbrev main_v137 : Ref sig .tc := ⟨.hbm, 140, rfl⟩
abbrev main_v138 : Ref sig .tc := ⟨.hbm, 141, rfl⟩
abbrev main_v139 : Ref sig .tc := ⟨.hbm, 142, rfl⟩
abbrev main_v140 : Ref sig .tc := ⟨.hbm, 143, rfl⟩
abbrev main_v141 : Ref sig .tc := ⟨.hbm, 144, rfl⟩
abbrev main_v142 : Ref sig .tc := ⟨.hbm, 145, rfl⟩
abbrev main_v143 : Ref sig .tc := ⟨.hbm, 146, rfl⟩
abbrev main_v144 : Ref sig .tc := ⟨.hbm, 147, rfl⟩
abbrev main_v145 : Ref sig .tc := ⟨.hbm, 148, rfl⟩
abbrev main_v146 : Ref sig .tc := ⟨.hbm, 149, rfl⟩
abbrev main_v147 : Ref sig .tc := ⟨.hbm, 150, rfl⟩
abbrev main_v148 : Ref sig .tc := ⟨.hbm, 151, rfl⟩
abbrev main_v149 : Ref sig .tc := ⟨.hbm, 152, rfl⟩
abbrev main_v150 : Ref sig .tc := ⟨.hbm, 153, rfl⟩
abbrev main_v151 : Ref sig .tc := ⟨.hbm, 154, rfl⟩
abbrev main_v152 : Ref sig .tc := ⟨.hbm, 155, rfl⟩
abbrev main_v153 : Ref sig .tc := ⟨.hbm, 156, rfl⟩
abbrev main_v154 : Ref sig .tc := ⟨.hbm, 157, rfl⟩
abbrev main_v155 : Ref sig .tc := ⟨.hbm, 158, rfl⟩
abbrev main_v156 : Ref sig .tc := ⟨.hbm, 159, rfl⟩
abbrev main_v157 : Ref sig .tc := ⟨.hbm, 160, rfl⟩
abbrev main_v158 : Ref sig .tc := ⟨.hbm, 161, rfl⟩
abbrev main_v159 : Ref sig .tc := ⟨.hbm, 162, rfl⟩
abbrev main_v160 : Ref sig .tc := ⟨.hbm, 163, rfl⟩
abbrev main_v161 : Ref sig .tc := ⟨.hbm, 164, rfl⟩
abbrev main_v162 : Ref sig .tc := ⟨.hbm, 165, rfl⟩
abbrev main_v163 : Ref sig .tc := ⟨.hbm, 166, rfl⟩
abbrev main_v164 : Ref sig .tc := ⟨.hbm, 167, rfl⟩
abbrev main_v165 : Ref sig .tc := ⟨.hbm, 168, rfl⟩
abbrev main_v166 : Ref sig .tc := ⟨.hbm, 169, rfl⟩
abbrev main_v167 : Ref sig .tc := ⟨.hbm, 170, rfl⟩
abbrev main_v168 : Ref sig .tc := ⟨.hbm, 171, rfl⟩
abbrev main_v169 : Ref sig .tc := ⟨.hbm, 172, rfl⟩
abbrev main_v170 : Ref sig .tc := ⟨.hbm, 173, rfl⟩
abbrev main_v171 : Ref sig .tc := ⟨.hbm, 174, rfl⟩
abbrev main_v172 : Ref sig .tc := ⟨.hbm, 175, rfl⟩
abbrev main_v173 : Ref sig .tc := ⟨.hbm, 176, rfl⟩
abbrev main_v174 : Ref sig .tc := ⟨.hbm, 177, rfl⟩
abbrev main_v175 : Ref sig .tc := ⟨.hbm, 178, rfl⟩
abbrev main_v176 : Ref sig .tc := ⟨.hbm, 179, rfl⟩
abbrev main_v177 : Ref sig .tc := ⟨.hbm, 180, rfl⟩
abbrev main_v178 : Ref sig .tc := ⟨.hbm, 181, rfl⟩
abbrev main_v179 : Ref sig .tc := ⟨.hbm, 182, rfl⟩
abbrev main_v180 : Ref sig .tc := ⟨.hbm, 183, rfl⟩
abbrev main_v181 : Ref sig .tc := ⟨.hbm, 184, rfl⟩
abbrev main_v182 : Ref sig .tc := ⟨.hbm, 185, rfl⟩
abbrev main_v183 : Ref sig .tc := ⟨.hbm, 186, rfl⟩
abbrev main_v184 : Ref sig .tc := ⟨.hbm, 187, rfl⟩
abbrev main_v185 : Ref sig .tc := ⟨.hbm, 188, rfl⟩
abbrev main_v186 : Ref sig .tc := ⟨.hbm, 189, rfl⟩
abbrev main_v187 : Ref sig .tc := ⟨.hbm, 190, rfl⟩
abbrev main_v188 : Ref sig .tc := ⟨.hbm, 191, rfl⟩
abbrev main_v189 : Ref sig .tc := ⟨.hbm, 192, rfl⟩
abbrev main_v190 : Ref sig .tc := ⟨.hbm, 193, rfl⟩
abbrev main_v191 : Ref sig .tc := ⟨.hbm, 194, rfl⟩
abbrev main_v192 : Ref sig .tc := ⟨.hbm, 195, rfl⟩
abbrev main_v193 : Ref sig .tc := ⟨.hbm, 196, rfl⟩
abbrev main_v194 : Ref sig .tc := ⟨.hbm, 197, rfl⟩
abbrev main_v195 : Ref sig .tc := ⟨.hbm, 198, rfl⟩
abbrev main_v196 : Ref sig .tc := ⟨.hbm, 199, rfl⟩
abbrev main_v197 : Ref sig .tc := ⟨.hbm, 200, rfl⟩
abbrev main_v198 : Ref sig .tc := ⟨.hbm, 201, rfl⟩
abbrev main_v199 : Ref sig .tc := ⟨.hbm, 202, rfl⟩
abbrev main_v200 : Ref sig .tc := ⟨.hbm, 203, rfl⟩
abbrev main_v201 : Ref sig .tc := ⟨.hbm, 204, rfl⟩
abbrev main_v202 : Ref sig .tc := ⟨.hbm, 205, rfl⟩
abbrev main_v203 : Ref sig .tc := ⟨.hbm, 206, rfl⟩
abbrev main_v204 : Ref sig .tc := ⟨.hbm, 207, rfl⟩
abbrev main_v205 : Ref sig .tc := ⟨.hbm, 208, rfl⟩
abbrev main_v206 : Ref sig .tc := ⟨.hbm, 209, rfl⟩
abbrev main_v207 : Ref sig .tc := ⟨.hbm, 210, rfl⟩
abbrev main_v208 : Ref sig .tc := ⟨.hbm, 211, rfl⟩
abbrev main_v209 : Ref sig .tc := ⟨.hbm, 212, rfl⟩
abbrev main_v210 : Ref sig .tc := ⟨.hbm, 213, rfl⟩
abbrev main_v211 : Ref sig .tc := ⟨.hbm, 214, rfl⟩
abbrev main_v212 : Ref sig .tc := ⟨.hbm, 215, rfl⟩
abbrev main_v213 : Ref sig .tc := ⟨.hbm, 216, rfl⟩
abbrev main_v214 : Ref sig .tc := ⟨.hbm, 217, rfl⟩
abbrev main_v215 : Ref sig .tc := ⟨.hbm, 218, rfl⟩
abbrev main_v216 : Ref sig .tc := ⟨.hbm, 219, rfl⟩
abbrev main_v217 : Ref sig .tc := ⟨.hbm, 220, rfl⟩
abbrev main_v218 : Ref sig .tc := ⟨.hbm, 221, rfl⟩
abbrev main_v219 : Ref sig .tc := ⟨.hbm, 222, rfl⟩
abbrev main_v220 : Ref sig .tc := ⟨.hbm, 223, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1024x1024 : S_.BroadcastsInDim S1024x1024 (![] : Fin 0 → Fin S1024x1024.rank)
  shapeCasts_S1024x1024_S1024x512x2 : S1024x1024.ShapeCasts S1024x512x2
  slices_S1024x512x2_S1024x512x1_0_0_0 : S1024x512x2.Slices ![0, 0, 0] S1024x512x1
  slices_S1024x512x2_S1024x512x1_0_0_1 : S1024x512x2.Slices ![0, 0, 1] S1024x512x1
  slices_S10x512_S1x512_0_0 : S10x512.Slices ![0, 0] S1x512
  shapeCasts_S1x512_S512 : S1x512.ShapeCasts S512
  shapeCasts_S512_S1x512x1 : S512.ShapeCasts S1x512x1
  bcast_S1x512x1_S1024x512x1_0_1_2 : S1x512x1.BroadcastsInDim S1024x512x1 (![0, 1, 2] : Fin 3 → Fin S1024x512x1.rank)
  concatenates_S1024x512x1_S1024x512x1_S1024x512x2_d2 : Shape.Concatenates [S1024x512x1, S1024x512x1] S1024x512x2 2
  shapeCasts_S1024x512x2_S1024x1024 : S1024x512x2.ShapeCasts S1024x1024
  shapeCasts_S1024x1024_S1024x256x4 : S1024x1024.ShapeCasts S1024x256x4
  slices_S1024x256x4_S1024x256x2_0_0_0 : S1024x256x4.Slices ![0, 0, 0] S1024x256x2
  slices_S1024x256x4_S1024x256x2_0_0_2 : S1024x256x4.Slices ![0, 0, 2] S1024x256x2
  slices_S10x512_S1x512_1_0 : S10x512.Slices ![1, 0] S1x512
  shapeCasts_S512_S1x256x2 : S512.ShapeCasts S1x256x2
  bcast_S1x256x2_S1024x256x2_0_1_2 : S1x256x2.BroadcastsInDim S1024x256x2 (![0, 1, 2] : Fin 3 → Fin S1024x256x2.rank)
  concatenates_S1024x256x2_S1024x256x2_S1024x256x4_d2 : Shape.Concatenates [S1024x256x2, S1024x256x2] S1024x256x4 2
  shapeCasts_S1024x256x4_S1024x1024 : S1024x256x4.ShapeCasts S1024x1024
  shapeCasts_S1024x1024_S1024x128x8 : S1024x1024.ShapeCasts S1024x128x8
  slices_S1024x128x8_S1024x128x4_0_0_0 : S1024x128x8.Slices ![0, 0, 0] S1024x128x4
  slices_S1024x128x8_S1024x128x4_0_0_4 : S1024x128x8.Slices ![0, 0, 4] S1024x128x4
  slices_S10x512_S1x512_2_0 : S10x512.Slices ![2, 0] S1x512
  shapeCasts_S512_S1x128x4 : S512.ShapeCasts S1x128x4
  bcast_S1x128x4_S1024x128x4_0_1_2 : S1x128x4.BroadcastsInDim S1024x128x4 (![0, 1, 2] : Fin 3 → Fin S1024x128x4.rank)
  concatenates_S1024x128x4_S1024x128x4_S1024x128x8_d2 : Shape.Concatenates [S1024x128x4, S1024x128x4] S1024x128x8 2
  shapeCasts_S1024x128x8_S1024x1024 : S1024x128x8.ShapeCasts S1024x1024
  shapeCasts_S1024x1024_S1024x64x16 : S1024x1024.ShapeCasts S1024x64x16
  slices_S1024x64x16_S1024x64x8_0_0_0 : S1024x64x16.Slices ![0, 0, 0] S1024x64x8
  slices_S1024x64x16_S1024x64x8_0_0_8 : S1024x64x16.Slices ![0, 0, 8] S1024x64x8
  slices_S10x512_S1x512_3_0 : S10x512.Slices ![3, 0] S1x512
  shapeCasts_S512_S1x64x8 : S512.ShapeCasts S1x64x8
  bcast_S1x64x8_S1024x64x8_0_1_2 : S1x64x8.BroadcastsInDim S1024x64x8 (![0, 1, 2] : Fin 3 → Fin S1024x64x8.rank)
  concatenates_S1024x64x8_S1024x64x8_S1024x64x16_d2 : Shape.Concatenates [S1024x64x8, S1024x64x8] S1024x64x16 2
  shapeCasts_S1024x64x16_S1024x1024 : S1024x64x16.ShapeCasts S1024x1024
  shapeCasts_S1024x1024_S1024x32x32 : S1024x1024.ShapeCasts S1024x32x32
  slices_S1024x32x32_S1024x32x16_0_0_0 : S1024x32x32.Slices ![0, 0, 0] S1024x32x16
  slices_S1024x32x32_S1024x32x16_0_0_16 : S1024x32x32.Slices ![0, 0, 16] S1024x32x16
  slices_S10x512_S1x512_4_0 : S10x512.Slices ![4, 0] S1x512
  shapeCasts_S512_S1x32x16 : S512.ShapeCasts S1x32x16
  bcast_S1x32x16_S1024x32x16_0_1_2 : S1x32x16.BroadcastsInDim S1024x32x16 (![0, 1, 2] : Fin 3 → Fin S1024x32x16.rank)
  concatenates_S1024x32x16_S1024x32x16_S1024x32x32_d2 : Shape.Concatenates [S1024x32x16, S1024x32x16] S1024x32x32 2
  shapeCasts_S1024x32x32_S1024x1024 : S1024x32x32.ShapeCasts S1024x1024
  shapeCasts_S1024x1024_S1024x16x64 : S1024x1024.ShapeCasts S1024x16x64
  slices_S1024x16x64_S1024x16x32_0_0_0 : S1024x16x64.Slices ![0, 0, 0] S1024x16x32
  slices_S1024x16x64_S1024x16x32_0_0_32 : S1024x16x64.Slices ![0, 0, 32] S1024x16x32
  slices_S10x512_S1x512_5_0 : S10x512.Slices ![5, 0] S1x512
  shapeCasts_S512_S1x16x32 : S512.ShapeCasts S1x16x32
  bcast_S1x16x32_S1024x16x32_0_1_2 : S1x16x32.BroadcastsInDim S1024x16x32 (![0, 1, 2] : Fin 3 → Fin S1024x16x32.rank)
  concatenates_S1024x16x32_S1024x16x32_S1024x16x64_d2 : Shape.Concatenates [S1024x16x32, S1024x16x32] S1024x16x64 2
  shapeCasts_S1024x16x64_S1024x1024 : S1024x16x64.ShapeCasts S1024x1024
  shapeCasts_S1024x1024_S1024x8x128 : S1024x1024.ShapeCasts S1024x8x128
  slices_S1024x8x128_S1024x8x64_0_0_0 : S1024x8x128.Slices ![0, 0, 0] S1024x8x64
  slices_S1024x8x128_S1024x8x64_0_0_64 : S1024x8x128.Slices ![0, 0, 64] S1024x8x64
  slices_S10x512_S1x512_6_0 : S10x512.Slices ![6, 0] S1x512
  shapeCasts_S512_S1x8x64 : S512.ShapeCasts S1x8x64
  bcast_S1x8x64_S1024x8x64_0_1_2 : S1x8x64.BroadcastsInDim S1024x8x64 (![0, 1, 2] : Fin 3 → Fin S1024x8x64.rank)
  concatenates_S1024x8x64_S1024x8x64_S1024x8x128_d2 : Shape.Concatenates [S1024x8x64, S1024x8x64] S1024x8x128 2
  shapeCasts_S1024x8x128_S1024x1024 : S1024x8x128.ShapeCasts S1024x1024
  shapeCasts_S1024x1024_S1024x4x256 : S1024x1024.ShapeCasts S1024x4x256
  slices_S1024x4x256_S1024x4x128_0_0_0 : S1024x4x256.Slices ![0, 0, 0] S1024x4x128
  slices_S1024x4x256_S1024x4x128_0_0_128 : S1024x4x256.Slices ![0, 0, 128] S1024x4x128
  slices_S10x512_S1x512_7_0 : S10x512.Slices ![7, 0] S1x512
  shapeCasts_S512_S1x4x128 : S512.ShapeCasts S1x4x128
  bcast_S1x4x128_S1024x4x128_0_1_2 : S1x4x128.BroadcastsInDim S1024x4x128 (![0, 1, 2] : Fin 3 → Fin S1024x4x128.rank)
  concatenates_S1024x4x128_S1024x4x128_S1024x4x256_d2 : Shape.Concatenates [S1024x4x128, S1024x4x128] S1024x4x256 2
  shapeCasts_S1024x4x256_S1024x1024 : S1024x4x256.ShapeCasts S1024x1024
  shapeCasts_S1024x1024_S1024x2x512 : S1024x1024.ShapeCasts S1024x2x512
  slices_S1024x2x512_S1024x2x256_0_0_0 : S1024x2x512.Slices ![0, 0, 0] S1024x2x256
  slices_S1024x2x512_S1024x2x256_0_0_256 : S1024x2x512.Slices ![0, 0, 256] S1024x2x256
  slices_S10x512_S1x512_8_0 : S10x512.Slices ![8, 0] S1x512
  shapeCasts_S512_S1x2x256 : S512.ShapeCasts S1x2x256
  bcast_S1x2x256_S1024x2x256_0_1_2 : S1x2x256.BroadcastsInDim S1024x2x256 (![0, 1, 2] : Fin 3 → Fin S1024x2x256.rank)
  concatenates_S1024x2x256_S1024x2x256_S1024x2x512_d2 : Shape.Concatenates [S1024x2x256, S1024x2x256] S1024x2x512 2
  shapeCasts_S1024x2x512_S1024x1024 : S1024x2x512.ShapeCasts S1024x1024
  shapeCasts_S1024x1024_S1024x1x1024 : S1024x1024.ShapeCasts S1024x1x1024
  slices_S1024x1x1024_S1024x1x512_0_0_0 : S1024x1x1024.Slices ![0, 0, 0] S1024x1x512
  slices_S1024x1x1024_S1024x1x512_0_0_512 : S1024x1x1024.Slices ![0, 0, 512] S1024x1x512
  slices_S10x512_S1x512_9_0 : S10x512.Slices ![9, 0] S1x512
  shapeCasts_S512_S1x1x512 : S512.ShapeCasts S1x1x512
  bcast_S1x1x512_S1024x1x512_0_1_2 : S1x1x512.BroadcastsInDim S1024x1x512 (![0, 1, 2] : Fin 3 → Fin S1024x1x512.rank)
  concatenates_S1024x1x512_S1024x1x512_S1024x1x1024_d2 : Shape.Concatenates [S1024x1x512, S1024x1x512] S1024x1x1024 2
  shapeCasts_S1024x1x1024_S1024x1024 : S1024x1x1024.ShapeCasts S1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .f32 = 32 ∨ (Rect.block (s := S16384x1024) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v216) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v219) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v220) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S10x512 : Shape := ⟨2, ![10, 512]⟩
abbrev S16384x512x2 : Shape := ⟨3, ![16384, 512, 2]⟩
abbrev S16384x512x1 : Shape := ⟨3, ![16384, 512, 1]⟩
abbrev S1x512 : Shape := ⟨2, ![1, 512]⟩
abbrev S512 : Shape := ⟨1, ![512]⟩
abbrev S1x512x1 : Shape := ⟨3, ![1, 512, 1]⟩
abbrev S16384x256x4 : Shape := ⟨3, ![16384, 256, 4]⟩
abbrev S16384x256x2 : Shape := ⟨3, ![16384, 256, 2]⟩
abbrev S1x256x2 : Shape := ⟨3, ![1, 256, 2]⟩
abbrev S16384x128x8 : Shape := ⟨3, ![16384, 128, 8]⟩
abbrev S16384x128x4 : Shape := ⟨3, ![16384, 128, 4]⟩
abbrev S1x128x4 : Shape := ⟨3, ![1, 128, 4]⟩
abbrev S16384x64x16 : Shape := ⟨3, ![16384, 64, 16]⟩
abbrev S16384x64x8 : Shape := ⟨3, ![16384, 64, 8]⟩
abbrev S1x64x8 : Shape := ⟨3, ![1, 64, 8]⟩
abbrev S16384x32x32 : Shape := ⟨3, ![16384, 32, 32]⟩
abbrev S16384x32x16 : Shape := ⟨3, ![16384, 32, 16]⟩
abbrev S1x32x16 : Shape := ⟨3, ![1, 32, 16]⟩
abbrev S16384x16x64 : Shape := ⟨3, ![16384, 16, 64]⟩
abbrev S16384x16x32 : Shape := ⟨3, ![16384, 16, 32]⟩
abbrev S1x16x32 : Shape := ⟨3, ![1, 16, 32]⟩
abbrev S16384x8x128 : Shape := ⟨3, ![16384, 8, 128]⟩
abbrev S16384x8x64 : Shape := ⟨3, ![16384, 8, 64]⟩
abbrev S1x8x64 : Shape := ⟨3, ![1, 8, 64]⟩
abbrev S16384x4x256 : Shape := ⟨3, ![16384, 4, 256]⟩
abbrev S16384x4x128 : Shape := ⟨3, ![16384, 4, 128]⟩
abbrev S1x4x128 : Shape := ⟨3, ![1, 4, 128]⟩
abbrev S16384x2x512 : Shape := ⟨3, ![16384, 2, 512]⟩
abbrev S16384x2x256 : Shape := ⟨3, ![16384, 2, 256]⟩
abbrev S1x2x256 : Shape := ⟨3, ![1, 2, 256]⟩
abbrev S16384x1x1024 : Shape := ⟨3, ![16384, 1, 1024]⟩
abbrev S16384x1x512 : Shape := ⟨3, ![16384, 1, 512]⟩
abbrev S1x1x512 : Shape := ⟨3, ![1, 1, 512]⟩

abbrev nBuf : Space → Nat
  | .hbm => 212
  | .vmem => 0
  | .smem => 0
  | _ => 0

abbrev hbmTy0_0 (i : Nat) : BufTy := match i % 128 with
  | 0 => ⟨S16384x1024, .f32⟩
  | 1 => ⟨S10x512, .f32⟩
  | 2 => ⟨S16384x512x2, .f32⟩
  | 3 => ⟨S16384x512x1, .f32⟩
  | 4 => ⟨S16384x512x1, .f32⟩
  | 5 => ⟨S1x512, .f32⟩
  | 6 => ⟨S512, .f32⟩
  | 7 => ⟨S1x512x1, .f32⟩
  | 8 => ⟨S1x512x1, .f32⟩
  | 9 => ⟨S1x512x1, .f32⟩
  | 10 => ⟨S16384x512x1, .f32⟩
  | 11 => ⟨S16384x512x1, .f32⟩
  | 12 => ⟨S16384x512x1, .f32⟩
  | 13 => ⟨S16384x512x1, .f32⟩
  | 14 => ⟨S16384x512x1, .f32⟩
  | 15 => ⟨S1x512x1, .f32⟩
  | 16 => ⟨S16384x512x1, .f32⟩
  | 17 => ⟨S16384x512x1, .f32⟩
  | 18 => ⟨S16384x512x1, .f32⟩
  | 19 => ⟨S16384x512x1, .f32⟩
  | 20 => ⟨S16384x512x1, .f32⟩
  | 21 => ⟨S16384x512x2, .f32⟩
  | 22 => ⟨S16384x1024, .f32⟩
  | 23 => ⟨S16384x256x4, .f32⟩
  | 24 => ⟨S16384x256x2, .f32⟩
  | 25 => ⟨S16384x256x2, .f32⟩
  | 26 => ⟨S1x512, .f32⟩
  | 27 => ⟨S512, .f32⟩
  | 28 => ⟨S1x256x2, .f32⟩
  | 29 => ⟨S1x256x2, .f32⟩
  | 30 => ⟨S1x256x2, .f32⟩
  | 31 => ⟨S16384x256x2, .f32⟩
  | 32 => ⟨S16384x256x2, .f32⟩
  | 33 => ⟨S16384x256x2, .f32⟩
  | 34 => ⟨S16384x256x2, .f32⟩
  | 35 => ⟨S16384x256x2, .f32⟩
  | 36 => ⟨S1x256x2, .f32⟩
  | 37 => ⟨S16384x256x2, .f32⟩
  | 38 => ⟨S16384x256x2, .f32⟩
  | 39 => ⟨S16384x256x2, .f32⟩
  | 40 => ⟨S16384x256x2, .f32⟩
  | 41 => ⟨S16384x256x2, .f32⟩
  | 42 => ⟨S16384x256x4, .f32⟩
  | 43 => ⟨S16384x1024, .f32⟩
  | 44 => ⟨S16384x128x8, .f32⟩
  | 45 => ⟨S16384x128x4, .f32⟩
  | 46 => ⟨S16384x128x4, .f32⟩
  | 47 => ⟨S1x512, .f32⟩
  | 48 => ⟨S512, .f32⟩
  | 49 => ⟨S1x128x4, .f32⟩
  | 50 => ⟨S1x128x4, .f32⟩
  | 51 => ⟨S1x128x4, .f32⟩
  | 52 => ⟨S16384x128x4, .f32⟩
  | 53 => ⟨S16384x128x4, .f32⟩
  | 54 => ⟨S16384x128x4, .f32⟩
  | 55 => ⟨S16384x128x4, .f32⟩
  | 56 => ⟨S16384x128x4, .f32⟩
  | 57 => ⟨S1x128x4, .f32⟩
  | 58 => ⟨S16384x128x4, .f32⟩
  | 59 => ⟨S16384x128x4, .f32⟩
  | 60 => ⟨S16384x128x4, .f32⟩
  | 61 => ⟨S16384x128x4, .f32⟩
  | 62 => ⟨S16384x128x4, .f32⟩
  | 63 => ⟨S16384x128x8, .f32⟩
  | 64 => ⟨S16384x1024, .f32⟩
  | 65 => ⟨S16384x64x16, .f32⟩
  | 66 => ⟨S16384x64x8, .f32⟩
  | 67 => ⟨S16384x64x8, .f32⟩
  | 68 => ⟨S1x512, .f32⟩
  | 69 => ⟨S512, .f32⟩
  | 70 => ⟨S1x64x8, .f32⟩
  | 71 => ⟨S1x64x8, .f32⟩
  | 72 => ⟨S1x64x8, .f32⟩
  | 73 => ⟨S16384x64x8, .f32⟩
  | 74 => ⟨S16384x64x8, .f32⟩
  | 75 => ⟨S16384x64x8, .f32⟩
  | 76 => ⟨S16384x64x8, .f32⟩
  | 77 => ⟨S16384x64x8, .f32⟩
  | 78 => ⟨S1x64x8, .f32⟩
  | 79 => ⟨S16384x64x8, .f32⟩
  | 80 => ⟨S16384x64x8, .f32⟩
  | 81 => ⟨S16384x64x8, .f32⟩
  | 82 => ⟨S16384x64x8, .f32⟩
  | 83 => ⟨S16384x64x8, .f32⟩
  | 84 => ⟨S16384x64x16, .f32⟩
  | 85 => ⟨S16384x1024, .f32⟩
  | 86 => ⟨S16384x32x32, .f32⟩
  | 87 => ⟨S16384x32x16, .f32⟩
  | 88 => ⟨S16384x32x16, .f32⟩
  | 89 => ⟨S1x512, .f32⟩
  | 90 => ⟨S512, .f32⟩
  | 91 => ⟨S1x32x16, .f32⟩
  | 92 => ⟨S1x32x16, .f32⟩
  | 93 => ⟨S1x32x16, .f32⟩
  | 94 => ⟨S16384x32x16, .f32⟩
  | 95 => ⟨S16384x32x16, .f32⟩
  | 96 => ⟨S16384x32x16, .f32⟩
  | 97 => ⟨S16384x32x16, .f32⟩
  | 98 => ⟨S16384x32x16, .f32⟩
  | 99 => ⟨S1x32x16, .f32⟩
  | 100 => ⟨S16384x32x16, .f32⟩
  | 101 => ⟨S16384x32x16, .f32⟩
  | 102 => ⟨S16384x32x16, .f32⟩
  | 103 => ⟨S16384x32x16, .f32⟩
  | 104 => ⟨S16384x32x16, .f32⟩
  | 105 => ⟨S16384x32x32, .f32⟩
  | 106 => ⟨S16384x1024, .f32⟩
  | 107 => ⟨S16384x16x64, .f32⟩
  | 108 => ⟨S16384x16x32, .f32⟩
  | 109 => ⟨S16384x16x32, .f32⟩
  | 110 => ⟨S1x512, .f32⟩
  | 111 => ⟨S512, .f32⟩
  | 112 => ⟨S1x16x32, .f32⟩
  | 113 => ⟨S1x16x32, .f32⟩
  | 114 => ⟨S1x16x32, .f32⟩
  | 115 => ⟨S16384x16x32, .f32⟩
  | 116 => ⟨S16384x16x32, .f32⟩
  | 117 => ⟨S16384x16x32, .f32⟩
  | 118 => ⟨S16384x16x32, .f32⟩
  | 119 => ⟨S16384x16x32, .f32⟩
  | 120 => ⟨S1x16x32, .f32⟩
  | 121 => ⟨S16384x16x32, .f32⟩
  | 122 => ⟨S16384x16x32, .f32⟩
  | 123 => ⟨S16384x16x32, .f32⟩
  | 124 => ⟨S16384x16x32, .f32⟩
  | 125 => ⟨S16384x16x32, .f32⟩
  | 126 => ⟨S16384x16x64, .f32⟩
  | 127 => ⟨S16384x1024, .f32⟩
  | _ => ⟨S16384x1024, .f32⟩

abbrev hbmTy0_1 (i : Nat) : BufTy := match i % 128 with
  | 0 => ⟨S16384x8x128, .f32⟩
  | 1 => ⟨S16384x8x64, .f32⟩
  | 2 => ⟨S16384x8x64, .f32⟩
  | 3 => ⟨S1x512, .f32⟩
  | 4 => ⟨S512, .f32⟩
  | 5 => ⟨S1x8x64, .f32⟩
  | 6 => ⟨S1x8x64, .f32⟩
  | 7 => ⟨S1x8x64, .f32⟩
  | 8 => ⟨S16384x8x64, .f32⟩
  | 9 => ⟨S16384x8x64, .f32⟩
  | 10 => ⟨S16384x8x64, .f32⟩
  | 11 => ⟨S16384x8x64, .f32⟩
  | 12 => ⟨S16384x8x64, .f32⟩
  | 13 => ⟨S1x8x64, .f32⟩
  | 14 => ⟨S16384x8x64, .f32⟩
  | 15 => ⟨S16384x8x64, .f32⟩
  | 16 => ⟨S16384x8x64, .f32⟩
  | 17 => ⟨S16384x8x64, .f32⟩
  | 18 => ⟨S16384x8x64, .f32⟩
  | 19 => ⟨S16384x8x128, .f32⟩
  | 20 => ⟨S16384x1024, .f32⟩
  | 21 => ⟨S16384x4x256, .f32⟩
  | 22 => ⟨S16384x4x128, .f32⟩
  | 23 => ⟨S16384x4x128, .f32⟩
  | 24 => ⟨S1x512, .f32⟩
  | 25 => ⟨S512, .f32⟩
  | 26 => ⟨S1x4x128, .f32⟩
  | 27 => ⟨S1x4x128, .f32⟩
  | 28 => ⟨S1x4x128, .f32⟩
  | 29 => ⟨S16384x4x128, .f32⟩
  | 30 => ⟨S16384x4x128, .f32⟩
  | 31 => ⟨S16384x4x128, .f32⟩
  | 32 => ⟨S16384x4x128, .f32⟩
  | 33 => ⟨S16384x4x128, .f32⟩
  | 34 => ⟨S1x4x128, .f32⟩
  | 35 => ⟨S16384x4x128, .f32⟩
  | 36 => ⟨S16384x4x128, .f32⟩
  | 37 => ⟨S16384x4x128, .f32⟩
  | 38 => ⟨S16384x4x128, .f32⟩
  | 39 => ⟨S16384x4x128, .f32⟩
  | 40 => ⟨S16384x4x256, .f32⟩
  | 41 => ⟨S16384x1024, .f32⟩
  | 42 => ⟨S16384x2x512, .f32⟩
  | 43 => ⟨S16384x2x256, .f32⟩
  | 44 => ⟨S16384x2x256, .f32⟩
  | 45 => ⟨S1x512, .f32⟩
  | 46 => ⟨S512, .f32⟩
  | 47 => ⟨S1x2x256, .f32⟩
  | 48 => ⟨S1x2x256, .f32⟩
  | 49 => ⟨S1x2x256, .f32⟩
  | 50 => ⟨S16384x2x256, .f32⟩
  | 51 => ⟨S16384x2x256, .f32⟩
  | 52 => ⟨S16384x2x256, .f32⟩
  | 53 => ⟨S16384x2x256, .f32⟩
  | 54 => ⟨S16384x2x256, .f32⟩
  | 55 => ⟨S1x2x256, .f32⟩
  | 56 => ⟨S16384x2x256, .f32⟩
  | 57 => ⟨S16384x2x256, .f32⟩
  | 58 => ⟨S16384x2x256, .f32⟩
  | 59 => ⟨S16384x2x256, .f32⟩
  | 60 => ⟨S16384x2x256, .f32⟩
  | 61 => ⟨S16384x2x512, .f32⟩
  | 62 => ⟨S16384x1024, .f32⟩
  | 63 => ⟨S16384x1x1024, .f32⟩
  | 64 => ⟨S16384x1x512, .f32⟩
  | 65 => ⟨S16384x1x512, .f32⟩
  | 66 => ⟨S1x512, .f32⟩
  | 67 => ⟨S512, .f32⟩
  | 68 => ⟨S1x1x512, .f32⟩
  | 69 => ⟨S1x1x512, .f32⟩
  | 70 => ⟨S1x1x512, .f32⟩
  | 71 => ⟨S16384x1x512, .f32⟩
  | 72 => ⟨S16384x1x512, .f32⟩
  | 73 => ⟨S16384x1x512, .f32⟩
  | 74 => ⟨S16384x1x512, .f32⟩
  | 75 => ⟨S16384x1x512, .f32⟩
  | 76 => ⟨S1x1x512, .f32⟩
  | 77 => ⟨S16384x1x512, .f32⟩
  | 78 => ⟨S16384x1x512, .f32⟩
  | 79 => ⟨S16384x1x512, .f32⟩
  | 80 => ⟨S16384x1x512, .f32⟩
  | 81 => ⟨S16384x1x512, .f32⟩
  | 82 => ⟨S16384x1x1024, .f32⟩
  | 83 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩
abbrev main_v67 : Ref sig .tc := ⟨.hbm, 69, rfl⟩
abbrev main_v68 : Ref sig .tc := ⟨.hbm, 70, rfl⟩
abbrev main_v69 : Ref sig .tc := ⟨.hbm, 71, rfl⟩
abbrev main_v70 : Ref sig .tc := ⟨.hbm, 72, rfl⟩
abbrev main_v71 : Ref sig .tc := ⟨.hbm, 73, rfl⟩
abbrev main_v72 : Ref sig .tc := ⟨.hbm, 74, rfl⟩
abbrev main_v73 : Ref sig .tc := ⟨.hbm, 75, rfl⟩
abbrev main_v74 : Ref sig .tc := ⟨.hbm, 76, rfl⟩
abbrev main_v75 : Ref sig .tc := ⟨.hbm, 77, rfl⟩
abbrev main_v76 : Ref sig .tc := ⟨.hbm, 78, rfl⟩
abbrev main_v77 : Ref sig .tc := ⟨.hbm, 79, rfl⟩
abbrev main_v78 : Ref sig .tc := ⟨.hbm, 80, rfl⟩
abbrev main_v79 : Ref sig .tc := ⟨.hbm, 81, rfl⟩
abbrev main_v80 : Ref sig .tc := ⟨.hbm, 82, rfl⟩
abbrev main_v81 : Ref sig .tc := ⟨.hbm, 83, rfl⟩
abbrev main_v82 : Ref sig .tc := ⟨.hbm, 84, rfl⟩
abbrev main_v83 : Ref sig .tc := ⟨.hbm, 85, rfl⟩
abbrev main_v84 : Ref sig .tc := ⟨.hbm, 86, rfl⟩
abbrev main_v85 : Ref sig .tc := ⟨.hbm, 87, rfl⟩
abbrev main_v86 : Ref sig .tc := ⟨.hbm, 88, rfl⟩
abbrev main_v87 : Ref sig .tc := ⟨.hbm, 89, rfl⟩
abbrev main_v88 : Ref sig .tc := ⟨.hbm, 90, rfl⟩
abbrev main_v89 : Ref sig .tc := ⟨.hbm, 91, rfl⟩
abbrev main_v90 : Ref sig .tc := ⟨.hbm, 92, rfl⟩
abbrev main_v91 : Ref sig .tc := ⟨.hbm, 93, rfl⟩
abbrev main_v92 : Ref sig .tc := ⟨.hbm, 94, rfl⟩
abbrev main_v93 : Ref sig .tc := ⟨.hbm, 95, rfl⟩
abbrev main_v94 : Ref sig .tc := ⟨.hbm, 96, rfl⟩
abbrev main_v95 : Ref sig .tc := ⟨.hbm, 97, rfl⟩
abbrev main_v96 : Ref sig .tc := ⟨.hbm, 98, rfl⟩
abbrev main_v97 : Ref sig .tc := ⟨.hbm, 99, rfl⟩
abbrev main_v98 : Ref sig .tc := ⟨.hbm, 100, rfl⟩
abbrev main_v99 : Ref sig .tc := ⟨.hbm, 101, rfl⟩
abbrev main_v100 : Ref sig .tc := ⟨.hbm, 102, rfl⟩
abbrev main_v101 : Ref sig .tc := ⟨.hbm, 103, rfl⟩
abbrev main_v102 : Ref sig .tc := ⟨.hbm, 104, rfl⟩
abbrev main_v103 : Ref sig .tc := ⟨.hbm, 105, rfl⟩
abbrev main_v104 : Ref sig .tc := ⟨.hbm, 106, rfl⟩
abbrev main_v105 : Ref sig .tc := ⟨.hbm, 107, rfl⟩
abbrev main_v106 : Ref sig .tc := ⟨.hbm, 108, rfl⟩
abbrev main_v107 : Ref sig .tc := ⟨.hbm, 109, rfl⟩
abbrev main_v108 : Ref sig .tc := ⟨.hbm, 110, rfl⟩
abbrev main_v109 : Ref sig .tc := ⟨.hbm, 111, rfl⟩
abbrev main_v110 : Ref sig .tc := ⟨.hbm, 112, rfl⟩
abbrev main_v111 : Ref sig .tc := ⟨.hbm, 113, rfl⟩
abbrev main_v112 : Ref sig .tc := ⟨.hbm, 114, rfl⟩
abbrev main_v113 : Ref sig .tc := ⟨.hbm, 115, rfl⟩
abbrev main_v114 : Ref sig .tc := ⟨.hbm, 116, rfl⟩
abbrev main_v115 : Ref sig .tc := ⟨.hbm, 117, rfl⟩
abbrev main_v116 : Ref sig .tc := ⟨.hbm, 118, rfl⟩
abbrev main_v117 : Ref sig .tc := ⟨.hbm, 119, rfl⟩
abbrev main_v118 : Ref sig .tc := ⟨.hbm, 120, rfl⟩
abbrev main_v119 : Ref sig .tc := ⟨.hbm, 121, rfl⟩
abbrev main_v120 : Ref sig .tc := ⟨.hbm, 122, rfl⟩
abbrev main_v121 : Ref sig .tc := ⟨.hbm, 123, rfl⟩
abbrev main_v122 : Ref sig .tc := ⟨.hbm, 124, rfl⟩
abbrev main_v123 : Ref sig .tc := ⟨.hbm, 125, rfl⟩
abbrev main_v124 : Ref sig .tc := ⟨.hbm, 126, rfl⟩
abbrev main_v125 : Ref sig .tc := ⟨.hbm, 127, rfl⟩
abbrev main_v126 : Ref sig .tc := ⟨.hbm, 128, rfl⟩
abbrev main_v127 : Ref sig .tc := ⟨.hbm, 129, rfl⟩
abbrev main_v128 : Ref sig .tc := ⟨.hbm, 130, rfl⟩
abbrev main_v129 : Ref sig .tc := ⟨.hbm, 131, rfl⟩
abbrev main_v130 : Ref sig .tc := ⟨.hbm, 132, rfl⟩
abbrev main_v131 : Ref sig .tc := ⟨.hbm, 133, rfl⟩
abbrev main_v132 : Ref sig .tc := ⟨.hbm, 134, rfl⟩
abbrev main_v133 : Ref sig .tc := ⟨.hbm, 135, rfl⟩
abbrev main_v134 : Ref sig .tc := ⟨.hbm, 136, rfl⟩
abbrev main_v135 : Ref sig .tc := ⟨.hbm, 137, rfl⟩
abbrev main_v136 : Ref sig .tc := ⟨.hbm, 138, rfl⟩
abbrev main_v137 : Ref sig .tc := ⟨.hbm, 139, rfl⟩
abbrev main_v138 : Ref sig .tc := ⟨.hbm, 140, rfl⟩
abbrev main_v139 : Ref sig .tc := ⟨.hbm, 141, rfl⟩
abbrev main_v140 : Ref sig .tc := ⟨.hbm, 142, rfl⟩
abbrev main_v141 : Ref sig .tc := ⟨.hbm, 143, rfl⟩
abbrev main_v142 : Ref sig .tc := ⟨.hbm, 144, rfl⟩
abbrev main_v143 : Ref sig .tc := ⟨.hbm, 145, rfl⟩
abbrev main_v144 : Ref sig .tc := ⟨.hbm, 146, rfl⟩
abbrev main_v145 : Ref sig .tc := ⟨.hbm, 147, rfl⟩
abbrev main_v146 : Ref sig .tc := ⟨.hbm, 148, rfl⟩
abbrev main_v147 : Ref sig .tc := ⟨.hbm, 149, rfl⟩
abbrev main_v148 : Ref sig .tc := ⟨.hbm, 150, rfl⟩
abbrev main_v149 : Ref sig .tc := ⟨.hbm, 151, rfl⟩
abbrev main_v150 : Ref sig .tc := ⟨.hbm, 152, rfl⟩
abbrev main_v151 : Ref sig .tc := ⟨.hbm, 153, rfl⟩
abbrev main_v152 : Ref sig .tc := ⟨.hbm, 154, rfl⟩
abbrev main_v153 : Ref sig .tc := ⟨.hbm, 155, rfl⟩
abbrev main_v154 : Ref sig .tc := ⟨.hbm, 156, rfl⟩
abbrev main_v155 : Ref sig .tc := ⟨.hbm, 157, rfl⟩
abbrev main_v156 : Ref sig .tc := ⟨.hbm, 158, rfl⟩
abbrev main_v157 : Ref sig .tc := ⟨.hbm, 159, rfl⟩
abbrev main_v158 : Ref sig .tc := ⟨.hbm, 160, rfl⟩
abbrev main_v159 : Ref sig .tc := ⟨.hbm, 161, rfl⟩
abbrev main_v160 : Ref sig .tc := ⟨.hbm, 162, rfl⟩
abbrev main_v161 : Ref sig .tc := ⟨.hbm, 163, rfl⟩
abbrev main_v162 : Ref sig .tc := ⟨.hbm, 164, rfl⟩
abbrev main_v163 : Ref sig .tc := ⟨.hbm, 165, rfl⟩
abbrev main_v164 : Ref sig .tc := ⟨.hbm, 166, rfl⟩
abbrev main_v165 : Ref sig .tc := ⟨.hbm, 167, rfl⟩
abbrev main_v166 : Ref sig .tc := ⟨.hbm, 168, rfl⟩
abbrev main_v167 : Ref sig .tc := ⟨.hbm, 169, rfl⟩
abbrev main_v168 : Ref sig .tc := ⟨.hbm, 170, rfl⟩
abbrev main_v169 : Ref sig .tc := ⟨.hbm, 171, rfl⟩
abbrev main_v170 : Ref sig .tc := ⟨.hbm, 172, rfl⟩
abbrev main_v171 : Ref sig .tc := ⟨.hbm, 173, rfl⟩
abbrev main_v172 : Ref sig .tc := ⟨.hbm, 174, rfl⟩
abbrev main_v173 : Ref sig .tc := ⟨.hbm, 175, rfl⟩
abbrev main_v174 : Ref sig .tc := ⟨.hbm, 176, rfl⟩
abbrev main_v175 : Ref sig .tc := ⟨.hbm, 177, rfl⟩
abbrev main_v176 : Ref sig .tc := ⟨.hbm, 178, rfl⟩
abbrev main_v177 : Ref sig .tc := ⟨.hbm, 179, rfl⟩
abbrev main_v178 : Ref sig .tc := ⟨.hbm, 180, rfl⟩
abbrev main_v179 : Ref sig .tc := ⟨.hbm, 181, rfl⟩
abbrev main_v180 : Ref sig .tc := ⟨.hbm, 182, rfl⟩
abbrev main_v181 : Ref sig .tc := ⟨.hbm, 183, rfl⟩
abbrev main_v182 : Ref sig .tc := ⟨.hbm, 184, rfl⟩
abbrev main_v183 : Ref sig .tc := ⟨.hbm, 185, rfl⟩
abbrev main_v184 : Ref sig .tc := ⟨.hbm, 186, rfl⟩
abbrev main_v185 : Ref sig .tc := ⟨.hbm, 187, rfl⟩
abbrev main_v186 : Ref sig .tc := ⟨.hbm, 188, rfl⟩
abbrev main_v187 : Ref sig .tc := ⟨.hbm, 189, rfl⟩
abbrev main_v188 : Ref sig .tc := ⟨.hbm, 190, rfl⟩
abbrev main_v189 : Ref sig .tc := ⟨.hbm, 191, rfl⟩
abbrev main_v190 : Ref sig .tc := ⟨.hbm, 192, rfl⟩
abbrev main_v191 : Ref sig .tc := ⟨.hbm, 193, rfl⟩
abbrev main_v192 : Ref sig .tc := ⟨.hbm, 194, rfl⟩
abbrev main_v193 : Ref sig .tc := ⟨.hbm, 195, rfl⟩
abbrev main_v194 : Ref sig .tc := ⟨.hbm, 196, rfl⟩
abbrev main_v195 : Ref sig .tc := ⟨.hbm, 197, rfl⟩
abbrev main_v196 : Ref sig .tc := ⟨.hbm, 198, rfl⟩
abbrev main_v197 : Ref sig .tc := ⟨.hbm, 199, rfl⟩
abbrev main_v198 : Ref sig .tc := ⟨.hbm, 200, rfl⟩
abbrev main_v199 : Ref sig .tc := ⟨.hbm, 201, rfl⟩
abbrev main_v200 : Ref sig .tc := ⟨.hbm, 202, rfl⟩
abbrev main_v201 : Ref sig .tc := ⟨.hbm, 203, rfl⟩
abbrev main_v202 : Ref sig .tc := ⟨.hbm, 204, rfl⟩
abbrev main_v203 : Ref sig .tc := ⟨.hbm, 205, rfl⟩
abbrev main_v204 : Ref sig .tc := ⟨.hbm, 206, rfl⟩
abbrev main_v205 : Ref sig .tc := ⟨.hbm, 207, rfl⟩
abbrev main_v206 : Ref sig .tc := ⟨.hbm, 208, rfl⟩
abbrev main_v207 : Ref sig .tc := ⟨.hbm, 209, rfl⟩
abbrev main_v208 : Ref sig .tc := ⟨.hbm, 210, rfl⟩
abbrev main_v209 : Ref sig .tc := ⟨.hbm, 211, rfl⟩

abbrev nD : Nat := 1
abbrev τ : Topo := Topo.v7x

variable {F : FTy → Type} [FloatOps F]

class Facts₀ : Prop where
  shapeCasts_S16384x1024_S16384x512x2 : S16384x1024.ShapeCasts S16384x512x2
  slices_S16384x512x2_S16384x512x1_0_0_0 : S16384x512x2.Slices ![0, 0, 0] S16384x512x1
  slices_S16384x512x2_S16384x512x1_0_0_1 : S16384x512x2.Slices ![0, 0, 1] S16384x512x1
  slices_S10x512_S1x512_0_0 : S10x512.Slices ![0, 0] S1x512
  shapeCasts_S1x512_S512 : S1x512.ShapeCasts S512
  shapeCasts_S512_S1x512x1 : S512.ShapeCasts S1x512x1
  bcast_S1x512x1_S16384x512x1_0_1_2 : S1x512x1.BroadcastsInDim S16384x512x1 (![0, 1, 2] : Fin 3 → Fin S16384x512x1.rank)
  concatenates_S16384x512x1_S16384x512x1_S16384x512x2_d2 : Shape.Concatenates [S16384x512x1, S16384x512x1] S16384x512x2 2
  shapeCasts_S16384x512x2_S16384x1024 : S16384x512x2.ShapeCasts S16384x1024
  shapeCasts_S16384x1024_S16384x256x4 : S16384x1024.ShapeCasts S16384x256x4
  slices_S16384x256x4_S16384x256x2_0_0_0 : S16384x256x4.Slices ![0, 0, 0] S16384x256x2
  slices_S16384x256x4_S16384x256x2_0_0_2 : S16384x256x4.Slices ![0, 0, 2] S16384x256x2
  slices_S10x512_S1x512_1_0 : S10x512.Slices ![1, 0] S1x512
  shapeCasts_S512_S1x256x2 : S512.ShapeCasts S1x256x2
  bcast_S1x256x2_S16384x256x2_0_1_2 : S1x256x2.BroadcastsInDim S16384x256x2 (![0, 1, 2] : Fin 3 → Fin S16384x256x2.rank)
  concatenates_S16384x256x2_S16384x256x2_S16384x256x4_d2 : Shape.Concatenates [S16384x256x2, S16384x256x2] S16384x256x4 2
  shapeCasts_S16384x256x4_S16384x1024 : S16384x256x4.ShapeCasts S16384x1024
  shapeCasts_S16384x1024_S16384x128x8 : S16384x1024.ShapeCasts S16384x128x8
  slices_S16384x128x8_S16384x128x4_0_0_0 : S16384x128x8.Slices ![0, 0, 0] S16384x128x4
  slices_S16384x128x8_S16384x128x4_0_0_4 : S16384x128x8.Slices ![0, 0, 4] S16384x128x4
  slices_S10x512_S1x512_2_0 : S10x512.Slices ![2, 0] S1x512
  shapeCasts_S512_S1x128x4 : S512.ShapeCasts S1x128x4
  bcast_S1x128x4_S16384x128x4_0_1_2 : S1x128x4.BroadcastsInDim S16384x128x4 (![0, 1, 2] : Fin 3 → Fin S16384x128x4.rank)
  concatenates_S16384x128x4_S16384x128x4_S16384x128x8_d2 : Shape.Concatenates [S16384x128x4, S16384x128x4] S16384x128x8 2
  shapeCasts_S16384x128x8_S16384x1024 : S16384x128x8.ShapeCasts S16384x1024
  shapeCasts_S16384x1024_S16384x64x16 : S16384x1024.ShapeCasts S16384x64x16
  slices_S16384x64x16_S16384x64x8_0_0_0 : S16384x64x16.Slices ![0, 0, 0] S16384x64x8
  slices_S16384x64x16_S16384x64x8_0_0_8 : S16384x64x16.Slices ![0, 0, 8] S16384x64x8
  slices_S10x512_S1x512_3_0 : S10x512.Slices ![3, 0] S1x512
  shapeCasts_S512_S1x64x8 : S512.ShapeCasts S1x64x8
  bcast_S1x64x8_S16384x64x8_0_1_2 : S1x64x8.BroadcastsInDim S16384x64x8 (![0, 1, 2] : Fin 3 → Fin S16384x64x8.rank)
  concatenates_S16384x64x8_S16384x64x8_S16384x64x16_d2 : Shape.Concatenates [S16384x64x8, S16384x64x8] S16384x64x16 2
  shapeCasts_S16384x64x16_S16384x1024 : S16384x64x16.ShapeCasts S16384x1024
  shapeCasts_S16384x1024_S16384x32x32 : S16384x1024.ShapeCasts S16384x32x32
  slices_S16384x32x32_S16384x32x16_0_0_0 : S16384x32x32.Slices ![0, 0, 0] S16384x32x16
  slices_S16384x32x32_S16384x32x16_0_0_16 : S16384x32x32.Slices ![0, 0, 16] S16384x32x16
  slices_S10x512_S1x512_4_0 : S10x512.Slices ![4, 0] S1x512
  shapeCasts_S512_S1x32x16 : S512.ShapeCasts S1x32x16
  bcast_S1x32x16_S16384x32x16_0_1_2 : S1x32x16.BroadcastsInDim S16384x32x16 (![0, 1, 2] : Fin 3 → Fin S16384x32x16.rank)
  concatenates_S16384x32x16_S16384x32x16_S16384x32x32_d2 : Shape.Concatenates [S16384x32x16, S16384x32x16] S16384x32x32 2
  shapeCasts_S16384x32x32_S16384x1024 : S16384x32x32.ShapeCasts S16384x1024
  shapeCasts_S16384x1024_S16384x16x64 : S16384x1024.ShapeCasts S16384x16x64
  slices_S16384x16x64_S16384x16x32_0_0_0 : S16384x16x64.Slices ![0, 0, 0] S16384x16x32
  slices_S16384x16x64_S16384x16x32_0_0_32 : S16384x16x64.Slices ![0, 0, 32] S16384x16x32
  slices_S10x512_S1x512_5_0 : S10x512.Slices ![5, 0] S1x512
  shapeCasts_S512_S1x16x32 : S512.ShapeCasts S1x16x32
  bcast_S1x16x32_S16384x16x32_0_1_2 : S1x16x32.BroadcastsInDim S16384x16x32 (![0, 1, 2] : Fin 3 → Fin S16384x16x32.rank)
  concatenates_S16384x16x32_S16384x16x32_S16384x16x64_d2 : Shape.Concatenates [S16384x16x32, S16384x16x32] S16384x16x64 2
  shapeCasts_S16384x16x64_S16384x1024 : S16384x16x64.ShapeCasts S16384x1024
  shapeCasts_S16384x1024_S16384x8x128 : S16384x1024.ShapeCasts S16384x8x128
  slices_S16384x8x128_S16384x8x64_0_0_0 : S16384x8x128.Slices ![0, 0, 0] S16384x8x64
  slices_S16384x8x128_S16384x8x64_0_0_64 : S16384x8x128.Slices ![0, 0, 64] S16384x8x64
  slices_S10x512_S1x512_6_0 : S10x512.Slices ![6, 0] S1x512
  shapeCasts_S512_S1x8x64 : S512.ShapeCasts S1x8x64
  bcast_S1x8x64_S16384x8x64_0_1_2 : S1x8x64.BroadcastsInDim S16384x8x64 (![0, 1, 2] : Fin 3 → Fin S16384x8x64.rank)
  concatenates_S16384x8x64_S16384x8x64_S16384x8x128_d2 : Shape.Concatenates [S16384x8x64, S16384x8x64] S16384x8x128 2
  shapeCasts_S16384x8x128_S16384x1024 : S16384x8x128.ShapeCasts S16384x1024
  shapeCasts_S16384x1024_S16384x4x256 : S16384x1024.ShapeCasts S16384x4x256
  slices_S16384x4x256_S16384x4x128_0_0_0 : S16384x4x256.Slices ![0, 0, 0] S16384x4x128
  slices_S16384x4x256_S16384x4x128_0_0_128 : S16384x4x256.Slices ![0, 0, 128] S16384x4x128
  slices_S10x512_S1x512_7_0 : S10x512.Slices ![7, 0] S1x512
  shapeCasts_S512_S1x4x128 : S512.ShapeCasts S1x4x128
  bcast_S1x4x128_S16384x4x128_0_1_2 : S1x4x128.BroadcastsInDim S16384x4x128 (![0, 1, 2] : Fin 3 → Fin S16384x4x128.rank)
  concatenates_S16384x4x128_S16384x4x128_S16384x4x256_d2 : Shape.Concatenates [S16384x4x128, S16384x4x128] S16384x4x256 2
  shapeCasts_S16384x4x256_S16384x1024 : S16384x4x256.ShapeCasts S16384x1024
  shapeCasts_S16384x1024_S16384x2x512 : S16384x1024.ShapeCasts S16384x2x512
  slices_S16384x2x512_S16384x2x256_0_0_0 : S16384x2x512.Slices ![0, 0, 0] S16384x2x256
  slices_S16384x2x512_S16384x2x256_0_0_256 : S16384x2x512.Slices ![0, 0, 256] S16384x2x256
  slices_S10x512_S1x512_8_0 : S10x512.Slices ![8, 0] S1x512
  shapeCasts_S512_S1x2x256 : S512.ShapeCasts S1x2x256
  bcast_S1x2x256_S16384x2x256_0_1_2 : S1x2x256.BroadcastsInDim S16384x2x256 (![0, 1, 2] : Fin 3 → Fin S16384x2x256.rank)
  concatenates_S16384x2x256_S16384x2x256_S16384x2x512_d2 : Shape.Concatenates [S16384x2x256, S16384x2x256] S16384x2x512 2
  shapeCasts_S16384x2x512_S16384x1024 : S16384x2x512.ShapeCasts S16384x1024
  shapeCasts_S16384x1024_S16384x1x1024 : S16384x1024.ShapeCasts S16384x1x1024
  slices_S16384x1x1024_S16384x1x512_0_0_0 : S16384x1x1024.Slices ![0, 0, 0] S16384x1x512
  slices_S16384x1x1024_S16384x1x512_0_0_512 : S16384x1x1024.Slices ![0, 0, 512] S16384x1x512
  slices_S10x512_S1x512_9_0 : S10x512.Slices ![9, 0] S1x512
  shapeCasts_S512_S1x1x512 : S512.ShapeCasts S1x1x512
  bcast_S1x1x512_S16384x1x512_0_1_2 : S1x1x512.BroadcastsInDim S16384x1x512 (![0, 1, 2] : Fin 3 → Fin S16384x1x512.rank)
  concatenates_S16384x1x512_S16384x1x512_S16384x1x1024_d2 : Shape.Concatenates [S16384x1x512, S16384x1x512] S16384x1x1024 2
  shapeCasts_S16384x1x1024_S16384x1024 : S16384x1x1024.ShapeCasts S16384x1024

variable [Facts₀]

class Facts : Prop extends Facts₀ where

variable [Facts]
-- ==== Proof.KerArrays.lean ====
/-
  The arrays of the kernel's program, named at their literal types.

  x and the angle table as launched; the identity matrix the host builds; the table W it computes from it; the two
  parts w_hi, w_lo it hands to the region; and the result array after the region's sixteen grid points.
-/
import proofs.«410151_j61942018343003_3_alg».proof.Proof.Gen.KernelIdeal.Frame
import Idealize.ShloMosaic.PureOps.Ideal

noncomputable section

namespace Cert.KernelIdeal.Arr

open Cert.KernelIdeal Cert.KernelIdeal.Gen Idealize.ShloMosaic Idealize.ShloMosaic.TcCoe Idealize.SL.Sem

variable (m : (ℓ : Loc nD τ sig) → Buf (Elt Ideal) ℓ)

/-- x, as the region finds it. -/
abbrev xarr (c : Dev nD) : FVec Ideal S16384x1024 .f32 := V m c main_arg0
/-- The angle table, as the host operations find it. -/
abbrev angarr (c : Dev nD) : FVec Ideal S10x512 .f32 := V m c main_arg1
/-- The matrix the host builds first. -/
abbrev eye (c : Dev nD) : FVec Ideal S1024x1024 .f32 := V m c main_v5
/-- The table W: the host's ten stages applied to that matrix. -/
abbrev wtab (c : Dev nD) : FVec Ideal S1024x1024 .f32 := V m c main_v215
/-- The leading part of W handed to the region. -/
abbrev whi (c : Dev nD) : FVec Ideal S1024x1024 .bf16 := V m c main_v216
/-- The remainder of W handed to the region. -/
abbrev wlo (c : Dev nD) : FVec Ideal S1024x1024 .bf16 := V m c main_v219
/-- The result array after the region. -/
abbrev outarr (c : Dev nD) : FVec Ideal S16384x1024 .f32 := (dats m 0 c).arrAt 3 cfg0.N

/-- x is as launched. -/
theorem xarr_eq (c : Dev nD) : xarr m c = m ((c : Thread nD τ).loc main_arg0) := V_main_arg0 m c
/-- The angle table is as launched. -/
theorem angarr_eq (c : Dev nD) : angarr m c = m ((c : Thread nD τ).loc main_arg1) := V_main_arg1 m c

end Cert.KernelIdeal.Arr

end
-- ==== Proof.Stage.lean ====
/-
  One butterfly stage on a row-major array of rows of 1024 numbers, read at an index.

  A stage of half-span H cuts each row into G groups of S = 2·H consecutive entries. Inside a group the entry at
  position p < H is paired with the entry at position p + H, and the pair is rotated by the group's angle for that
  position: the lower entry becomes cos·lower + sin·upper, the upper entry becomes −sin·lower + cos·upper. The
  angles of a stage are one row of the 10 × 512 angle table, laid out group by group (G·H = 512).

  So every entry j of the new row is  a(j)·y(j) + b(j)·y(σ j)  where σ swaps the two members of a pair and the
  coefficients a, b depend only on the angles, not on the row: the stage is one fixed linear map applied to every row.
  This file states that for any number of rows R.
-/
import Idealize.ShloMosaic.Lib.Pipeline.Value
import Idealize.ShloMosaic.Lib.ValueIdx
import Idealize.ShloMosaic.PureOps.Ideal

noncomputable section

open Idealize.ShloMosaic Idealize.ShloMosaic.ValueIdx

namespace Cert.Butterfly

/-- The shape relations one stage's layout operations need, for R rows, G groups of S = 2·H entries, stage number s. -/
structure StageEv (R G H S s : ℕ) : Prop where
  toGroups : (⟨2, ![R, 1024]⟩ : Shape).ShapeCasts ⟨3, ![R, G, S]⟩
  lower : (⟨3, ![R, G, S]⟩ : Shape).Slices ![0, 0, 0] ⟨3, ![R, G, H]⟩
  upper : (⟨3, ![R, G, S]⟩ : Shape).Slices ![0, 0, H] ⟨3, ![R, G, H]⟩
  angleRow : (⟨2, ![10, 512]⟩ : Shape).Slices ![s, 0] ⟨2, ![1, 512]⟩
  angleFlat : (⟨2, ![1, 512]⟩ : Shape).ShapeCasts ⟨1, ![512]⟩
  angleGroups : (⟨1, ![512]⟩ : Shape).ShapeCasts ⟨3, ![1, G, H]⟩
  toRows : (⟨3, ![1, G, H]⟩ : Shape).BroadcastsInDim ⟨3, ![R, G, H]⟩ ![0, 1, 2]
  join : Shape.Concatenates [⟨3, ![R, G, H]⟩, ⟨3, ![R, G, H]⟩] ⟨3, ![R, G, S]⟩ 2
  toFlat : (⟨3, ![R, G, S]⟩ : Shape).ShapeCasts ⟨2, ![R, 1024]⟩

section Term
variable {F : FTy → Type} [FloatOps F]

/-- A row-major [R, 1024] array cut into groups: [R, G, S]. -/
def groups {R G H S s : ℕ} (ev : StageEv R G H S s) (y : FVec F ⟨2, ![R, 1024]⟩ .f32) : FVec F ⟨3, ![R, G, S]⟩ .f32 :=
  shapeCast _ y ev.toGroups

/-- The stage's angles, [1, G, H]: row s of the angle table, group by group. -/
def angles3 {R G H S s : ℕ} (ev : StageEv R G H S s) (ang : FVec F ⟨2, ![10, 512]⟩ .f32) : FVec F ⟨3, ![1, G, H]⟩ .f32 :=
  shapeCast _ (shapeCast ⟨1, ![512]⟩ (extractStridedSlice ⟨2, ![1, 512]⟩ ![s, 0] ang ev.angleRow) ev.angleFlat) ev.angleGroups

/-- The rotated groups, [R, G, S], from the grouped array and the stage's cosines and sines. -/
def rotated {R G H S s : ℕ} (ev : StageEv R G H S s) (y3 : FVec F ⟨3, ![R, G, S]⟩ .f32)
    (c sn : FVec F ⟨3, ![1, G, H]⟩ .f32) : FVec F ⟨3, ![R, G, S]⟩ .f32 :=
  concatenate ⟨3, ![R, G, S]⟩ 2
    [⟨⟨3, ![R, G, H]⟩, addf (mulf (broadcastInDim ⟨3, ![R, G, H]⟩ ![0, 1, 2] ev.toRows c) (extractStridedSlice ⟨3, ![R, G, H]⟩ ![0, 0, 0] y3 ev.lower))
        (mulf (broadcastInDim ⟨3, ![R, G, H]⟩ ![0, 1, 2] ev.toRows sn) (extractStridedSlice ⟨3, ![R, G, H]⟩ ![0, 0, H] y3 ev.upper))⟩,
     ⟨⟨3, ![R, G, H]⟩, addf (mulf (broadcastInDim ⟨3, ![R, G, H]⟩ ![0, 1, 2] ev.toRows (Host.negf sn)) (extractStridedSlice ⟨3, ![R, G, H]⟩ ![0, 0, 0] y3 ev.lower))
        (mulf (broadcastInDim ⟨3, ![R, G, H]⟩ ![0, 1, 2] ev.toRows c) (extractStridedSlice ⟨3, ![R, G, H]⟩ ![0, 0, H] y3 ev.upper))⟩]
    ev.join

/-- One whole stage, from a row-major [R, 1024] array to a row-major [R, 1024] array. -/
def stage {R G H S s : ℕ} (ev : StageEv R G H S s) (y : FVec F ⟨2, ![R, 1024]⟩ .f32) (ang : FVec F ⟨2, ![10, 512]⟩ .f32) :
    FVec F ⟨2, ![R, 1024]⟩ .f32 :=
  shapeCast _ (rotated ev (groups ev y) (Host.cos (angles3 ev ang)) (Host.sin (angles3 ev ang))) ev.toFlat

end Term

/-! ## Positions inside a row -/

/-- The other member of entry j's pair. -/
def partner (H S j : ℕ) : ℕ := if j % S < H then j + H else j - H

/-- Where entry j's angle sits in the stage's row of 512 angles. -/
def angleAt (H S j : ℕ) : ℕ := j / S * H + (if j % S < H then j % S else j % S - H)

/-- A group is not empty. -/
theorem span_pos {G S : ℕ} (hN : G * S = 1024) : 0 < S := by
  rcases Nat.eq_zero_or_pos S with h | h
  · subst h; simp at hN
  · exact h

/-- An entry's group number is below the number of groups. -/
theorem group_lt {G S j : ℕ} (hN : G * S = 1024) (hj : j < 1024) : j / S < G :=
  Nat.div_lt_of_lt_mul (by rw [Nat.mul_comm, hN]; exact hj)

theorem partner_lt {G H S j : ℕ} (hS : H + H = S) (hN : G * S = 1024) (hj : j < 1024) : partner H S j < 1024 := by
  unfold partner
  split_ifs with h
  · have hq : j / S + 1 ≤ G := group_lt hN hj
    have hd := Nat.div_add_mod j S
    have hle : S * (j / S + 1) ≤ S * G := Nat.mul_le_mul_left S hq
    rw [Nat.mul_add, Nat.mul_one, Nat.mul_comm S G, hN] at hle
    omega
  · omega

theorem angleAt_lt {G H S j : ℕ} (hS : H + H = S) (hN : G * S = 1024) (hT : G * H = 512) (hj : j < 1024) :
    angleAt H S j < 512 := by
  unfold angleAt
  have hq : j / S + 1 ≤ G := group_lt hN hj
  have hp : j % S < S := Nat.mod_lt _ (span_pos hN)
  have hle : (j / S + 1) * H ≤ G * H := Nat.mul_le_mul_right H hq
  rw [Nat.add_mul, Nat.one_mul, hT] at hle
  split_ifs with h <;> omega

/-- The pair partner as a map of the row's index set. -/
def sigma {G H S : ℕ} (hS : H + H = S) (hN : G * S = 1024) (j : Fin 1024) : Fin 1024 :=
  ⟨partner H S j.val, partner_lt hS hN j.isLt⟩

/-- The angle index as an element of the stage's row of angles. -/
def tau {G H S : ℕ} (hS : H + H = S) (hN : G * S = 1024) (hT : G * H = 512) (j : Fin 1024) : Fin 512 :=
  ⟨angleAt H S j.val, angleAt_lt hS hN hT j.isLt⟩

/-! ## The stage's layout operations at an index -/

section Reads
variable {R G H S s : ℕ}

/-- Entry p of group q of row r is entry S·q + p of the row. -/
theorem groups_apply {α : Type} (e : (⟨2, ![R, 1024]⟩ : Shape).ShapeCasts ⟨3, ![R, G, S]⟩) (hN : G * S = 1024)
    (y : (⟨2, ![R, 1024]⟩ : Shape).Idx → α)
    (r : Fin R) (q : Fin G) (p : Fin S) (j : Fin 1024) (hj : S * q.val + p.val = j.val) :
    shapeCast ⟨3, ![R, G, S]⟩ y e (ix3 r q p) = y (ix2 r j) := by
  refine shapeCast_apply y e (ix3 r q p) (ix2 r j) ?_
  rw [Shape.rowMajor_val_two, Shape.rowMajor_val_three]
  show r.val * 1024 + j.val = (r.val * G + q.val) * S + p.val
  rw [← hj, ← hN]; ring

/-- Flattening back: entry j of row r is entry p of group q when j = S·q + p. -/
theorem flat_apply {α : Type} (e : (⟨3, ![R, G, S]⟩ : Shape).ShapeCasts ⟨2, ![R, 1024]⟩) (hN : G * S = 1024)
    (z : (⟨3, ![R, G, S]⟩ : Shape).Idx → α)
    (r : Fin R) (q : Fin G) (p : Fin S) (j : Fin 1024) (hj : S * q.val + p.val = j.val) :
    shapeCast ⟨2, ![R, 1024]⟩ z e (ix2 r j) = z (ix3 r q p) := by
  refine shapeCast_apply z e (ix2 r j) (ix3 r q p) ?_
  rw [Shape.rowMajor_val_two, Shape.rowMajor_val_three]
  show (r.val * G + q.val) * S + p.val = r.val * 1024 + j.val
  rw [← hj, ← hN]; ring

/-- The angle of position p of group q is entry H·q + p of the stage's row of the table. -/
theorem angles3_apply {F : FTy → Type} [FloatOps F] (ev : StageEv R G H S s) (ang : FVec F ⟨2, ![10, 512]⟩ .f32)
    (z : Fin 1) (q : Fin G) (p : Fin H) (a : Fin 10) (ha : a.val = s) (t : Fin 512) (ht : q.val * H + p.val = t.val) :
    angles3 ev ang (ix3 z q p) = ang (ix2 a t) := by
  unfold angles3
  have hz : z.val = 0 := by omega
  refine (shapeCast_apply _ ev.angleGroups (ix3 z q p) (ix1 t) ?_).trans ?_
  · rw [Shape.rowMajor_val_one, Shape.rowMajor_val_three]
    show t.val = (z.val * G + q.val) * H + p.val
    rw [hz, ← ht]; ring
  refine (shapeCast_apply _ ev.angleFlat (ix1 t) (ix2 (0 : Fin 1) t) ?_).trans ?_
  · rw [Shape.rowMajor_val_one, Shape.rowMajor_val_two]
    show (0 : ℕ) * 512 + t.val = t.val
    omega
  refine extractStridedSlice_apply _ ang ev.angleRow (ix2 (0 : Fin 1) t) (ix2 a t) fun b => ?_
  match b with
  | ⟨0, _⟩ => show a.val = s + 0; omega
  | ⟨1, _⟩ => show t.val = 0 + t.val; omega

/-- A [1, G, H] array repeated over the rows reads the same entry in every row. -/
theorem toRows_apply {α : Type} (e : (⟨3, ![1, G, H]⟩ : Shape).BroadcastsInDim ⟨3, ![R, G, H]⟩ ![0, 1, 2])
    (v : (⟨3, ![1, G, H]⟩ : Shape).Idx → α) (r : Fin R) (q : Fin G) (p : Fin H) :
    broadcastInDim ⟨3, ![R, G, H]⟩ ![0, 1, 2] e v (ix3 r q p) = v (ix3 (0 : Fin 1) q p) := by
  refine broadcastInDim_apply _ e v (ix3 r q p) (ix3 (0 : Fin 1) q p) fun b => ?_
  match b with
  | ⟨0, _⟩ => show (0 : ℕ) = if (1 : ℕ) = 1 then 0 else r.val; simp
  | ⟨1, _⟩ =>
    show q.val = if G = 1 then 0 else q.val
    have := q.isLt
    split_ifs <;> omega
  | ⟨2, _⟩ =>
    show p.val = if H = 1 then 0 else p.val
    have := p.isLt
    split_ifs <;> omega

/-- The lower half of a group keeps positions. -/
theorem lower_apply {α : Type} (e : (⟨3, ![R, G, S]⟩ : Shape).Slices ![0, 0, 0] ⟨3, ![R, G, H]⟩)
    (z : (⟨3, ![R, G, S]⟩ : Shape).Idx → α) (r : Fin R) (q : Fin G) (p : Fin H) (p' : Fin S) (hp : p'.val = p.val) :
    extractStridedSlice ⟨3, ![R, G, H]⟩ ![0, 0, 0] z e (ix3 r q p) = z (ix3 r q p') := by
  refine extractStridedSlice_apply _ z e (ix3 r q p) (ix3 r q p') fun b => ?_
  match b with
  | ⟨0, _⟩ => show r.val = 0 + r.val; omega
  | ⟨1, _⟩ => show q.val = 0 + q.val; omega
  | ⟨2, _⟩ => show p'.val = 0 + p.val; omega

/-- The upper half of a group sits H positions further on. -/
theorem upper_apply {α : Type} (e : (⟨3, ![R, G, S]⟩ : Shape).Slices ![0, 0, H] ⟨3, ![R, G, H]⟩)
    (z : (⟨3, ![R, G, S]⟩ : Shape).Idx → α) (r : Fin R) (q : Fin G) (p : Fin H) (p' : Fin S) (hp : p'.val = H + p.val) :
    extractStridedSlice ⟨3, ![R, G, H]⟩ ![0, 0, H] z e (ix3 r q p) = z (ix3 r q p') := by
  refine extractStridedSlice_apply _ z e (ix3 r q p) (ix3 r q p') fun b => ?_
  match b with
  | ⟨0, _⟩ => show r.val = 0 + r.val; omega
  | ⟨1, _⟩ => show q.val = 0 + q.val; omega
  | ⟨2, _⟩ => show p'.val = H + p.val; omega

/-- The host's cosine, sine and negation read entry by entry. -/
theorem hostCos_apply {sh : Shape} {φ : FTy} (v : FVec Ideal sh φ) (i : sh.Idx) : Host.cos v i = Ideal.cos (v i) := rfl
theorem hostSin_apply {sh : Shape} {φ : FTy} (v : FVec Ideal sh φ) (i : sh.Idx) : Host.sin v i = Ideal.sin (v i) := rfl
theorem hostNegf_apply {sh : Shape} {φ : FTy} (v : FVec Ideal sh φ) (i : sh.Idx) : Host.negf v i = -(v i) := rfl

end Reads

/-! ## The stage at an index, on the extended reals -/

/-- The coefficient of the entry itself: the cosine of its pair's angle. -/
def coefA {G H S : ℕ} (hS : H + H = S) (hN : G * S = 1024) (hT : G * H = 512) (s : Fin 10)
    (ang : FVec Ideal ⟨2, ![10, 512]⟩ .f32) (j : Fin 1024) : EReal :=
  Ideal.cos (ang (ix2 s (tau hS hN hT j)))

/-- The coefficient of the partner: the sine of the pair's angle for the lower member, minus it for the upper one. -/
def coefB {G H S : ℕ} (hS : H + H = S) (hN : G * S = 1024) (hT : G * H = 512) (s : Fin 10)
    (ang : FVec Ideal ⟨2, ![10, 512]⟩ .f32) (j : Fin 1024) : EReal :=
  if j.val % S < H then Ideal.sin (ang (ix2 s (tau hS hN hT j))) else -Ideal.sin (ang (ix2 s (tau hS hN hT j)))

/-- ONE STAGE AT AN INDEX: entry (r, j) of the stage's result is a(j)·y(r, j) + b(j)·y(r, σ j). -/
theorem stage_apply {R G H S : ℕ} (s : Fin 10) (ev : StageEv R G H S s.val) (hS : H + H = S) (hN : G * S = 1024) (hT : G * H = 512)
    (y : FVec Ideal ⟨2, ![R, 1024]⟩ .f32) (ang : FVec Ideal ⟨2, ![10, 512]⟩ .f32) (r : Fin R) (j : Fin 1024) :
    stage ev y ang (ix2 r j)
      = coefA hS hN hT s ang j * y (ix2 r j) + coefB hS hN hT s ang j * y (ix2 r (sigma hS hN j)) := by
  have hSpos : 0 < S := span_pos hN
  have hqG : j.val / S < G := group_lt hN j.isLt
  have hpS : j.val % S < S := Nat.mod_lt _ hSpos
  have hjqp : S * (j.val / S) + j.val % S = j.val := Nat.div_add_mod j.val S
  unfold stage
  rw [flat_apply ev.toFlat hN _ r ⟨j.val / S, hqG⟩ ⟨j.val % S, hpS⟩ j hjqp]
  unfold rotated
  by_cases hlt : j.val % S < H
  · -- the lower member of its pair: cos·y(j) + sin·y(j + H)
    have hpart : (sigma hS hN j).val = j.val + H := by
      show partner H S j.val = _
      unfold partner; rw [if_pos hlt]
    have htau : j.val / S * H + j.val % S = (tau hS hN hT j).val := by
      show _ = angleAt H S j.val
      unfold angleAt; rw [if_pos hlt]
    refine (concatenate_pair_apply_left (2 : Fin 3) _ _ ev.join (ix3 r ⟨j.val / S, hqG⟩ ⟨j.val % S, hpS⟩) rfl
      (ix3 r ⟨j.val / S, hqG⟩ ⟨j.val % S, hlt⟩) (fun b => by
        match b with
        | ⟨0, _⟩ => rfl
        | ⟨1, _⟩ => rfl
        | ⟨2, _⟩ => rfl)).trans ?_
    rw [addf_apply, mulf_apply, mulf_apply, toRows_apply, toRows_apply, hostCos_apply, hostSin_apply,
      angles3_apply ev ang 0 ⟨j.val / S, hqG⟩ ⟨j.val % S, hlt⟩ s rfl (tau hS hN hT j) htau,
      lower_apply ev.lower _ r ⟨j.val / S, hqG⟩ ⟨j.val % S, hlt⟩ ⟨j.val % S, hpS⟩ rfl,
      upper_apply ev.upper _ r ⟨j.val / S, hqG⟩ ⟨j.val % S, hlt⟩ ⟨j.val % S + H, by omega⟩ (by show j.val % S + H = H + j.val % S; omega)]
    unfold groups
    rw [groups_apply ev.toGroups hN y r ⟨j.val / S, hqG⟩ ⟨j.val % S, hpS⟩ j hjqp,
      groups_apply ev.toGroups hN y r ⟨j.val / S, hqG⟩ ⟨j.val % S + H, by omega⟩ (sigma hS hN j)
        (by show S * (j.val / S) + (j.val % S + H) = _; rw [hpart]; omega)]
    simp only [coefA, coefB, if_pos hlt]
  · -- the upper member of its pair: −sin·y(j − H) + cos·y(j)
    have hge : H ≤ j.val % S := Nat.le_of_not_lt hlt
    have hp' : j.val % S - H < H := by omega
    have hpart : (sigma hS hN j).val = j.val - H := by
      show partner H S j.val = _
      unfold partner; rw [if_neg hlt]
    have htau : j.val / S * H + (j.val % S - H) = (tau hS hN hT j).val := by
      show _ = angleAt H S j.val
      unfold angleAt; rw [if_neg hlt]
    refine (concatenate_pair_apply_right (2 : Fin 3) _ _ ev.join (ix3 r ⟨j.val / S, hqG⟩ ⟨j.val % S, hpS⟩) rfl rfl
      (ix3 r ⟨j.val / S, hqG⟩ ⟨j.val % S - H, hp'⟩) (fun b hb => by
        match b with
        | ⟨0, _⟩ => rfl
        | ⟨1, _⟩ => rfl
        | ⟨2, _⟩ => exact absurd rfl hb) (by show j.val % S - H + H = j.val % S; omega)).trans ?_
    rw [addf_apply, mulf_apply, mulf_apply, toRows_apply, toRows_apply, hostNegf_apply, hostCos_apply, hostSin_apply,
      angles3_apply ev ang 0 ⟨j.val / S, hqG⟩ ⟨j.val % S - H, hp'⟩ s rfl (tau hS hN hT j) htau,
      lower_apply ev.lower _ r ⟨j.val / S, hqG⟩ ⟨j.val % S - H, hp'⟩ ⟨j.val % S - H, by omega⟩ rfl,
      upper_apply ev.upper _ r ⟨j.val / S, hqG⟩ ⟨j.val % S - H, hp'⟩ ⟨j.val % S, hpS⟩ (by show j.val % S = H + (j.val % S - H); omega)]
    unfold groups
    rw [groups_apply ev.toGroups hN y r ⟨j.val / S, hqG⟩ ⟨j.val % S, hpS⟩ j hjqp,
      groups_apply ev.toGroups hN y r ⟨j.val / S, hqG⟩ ⟨j.val % S - H, by omega⟩ (sigma hS hN j)
        (by show S * (j.val / S) + (j.val % S - H) = _; rw [hpart]; omega)]
    simp only [coefA, coefB, if_neg hlt]
    exact add_comm _ _

/-! ## The same over real numbers: finite angles give real coefficients -/

/-- The real coefficient of the entry itself. -/
def coefAr {G H S : ℕ} (hS : H + H = S) (hN : G * S = 1024) (hT : G * H = 512) (θ : Fin 512 → ℝ) (j : Fin 1024) : ℝ :=
  Real.cos (θ (tau hS hN hT j))

/-- The real coefficient of the partner. -/
def coefBr {G H S : ℕ} (hS : H + H = S) (hN : G * S = 1024) (hT : G * H = 512) (θ : Fin 512 → ℝ) (j : Fin 1024) : ℝ :=
  if j.val % S < H then Real.sin (θ (tau hS hN hT j)) else -Real.sin (θ (tau hS hN hT j))

/-- ONE STAGE ON REAL DATA: if the array's entries and the angles are real numbers, so are the result's, and each is
    a(j)·y(r, j) + b(j)·y(r, σ j) over the reals. -/
theorem stage_apply_real {R G H S : ℕ} (s : Fin 10) (ev : StageEv R G H S s.val) (hS : H + H = S) (hN : G * S = 1024) (hT : G * H = 512)
    (y : FVec Ideal ⟨2, ![R, 1024]⟩ .f32) (ang : FVec Ideal ⟨2, ![10, 512]⟩ .f32)
    (yr : Fin R → Fin 1024 → ℝ) (θr : Fin 10 → Fin 512 → ℝ)
    (hy : ∀ r j, y (ix2 r j) = ((yr r j : ℝ) : EReal)) (hθ : ∀ a b, ang (ix2 a b) = ((θr a b : ℝ) : EReal))
    (r : Fin R) (j : Fin 1024) :
    stage ev y ang (ix2 r j)
      = ((coefAr hS hN hT (θr s) j * yr r j + coefBr hS hN hT (θr s) j * yr r (sigma hS hN j) : ℝ) : EReal) := by
  rw [stage_apply s ev hS hN hT y ang r j, hy, hy]
  unfold coefA coefB coefAr coefBr
  rw [hθ]
  by_cases hlt : j.val % S < H
  · rw [if_pos hlt, if_pos hlt, Ideal.cos_coe, Ideal.sin_coe]
    rw [← EReal.coe_mul, ← EReal.coe_mul, ← EReal.coe_add]
  · rw [if_neg hlt, if_neg hlt, Ideal.cos_coe, Ideal.sin_coe]
    rw [← EReal.coe_neg, ← EReal.coe_mul, ← EReal.coe_mul, ← EReal.coe_add]

end Cert.Butterfly

end
-- ==== Proof.Linear.lean ====
/-
  Pairwise linear steps on rows of real numbers, and why a composition of them is a matrix product.

  A step replaces every entry y(j) of a row by a(j)·y(j) + b(j)·y(σ j), for fixed coefficient rows a, b and a fixed
  map σ of positions. Such a step is linear in the row, so a composition T of steps is linear too, and a linear map on
  rows is determined by what it does to the unit rows e_k (1 at position k, 0 elsewhere):

      T(y)(j) = ∑ k, y(k) · T(e_k)(j).

  Row k of the matrix of T is T(e_k): running the steps on the identity matrix, row by row, yields the matrix whose
  product with a row y is T(y).
-/
import Mathlib.Algebra.BigOperators.Pi
import Mathlib.Algebra.BigOperators.Ring.Finset
import Mathlib.Data.Real.Basic
import Mathlib.Tactic.Ring

open scoped BigOperators

namespace Cert.Butterfly

/-- One pairwise linear step on rows of length n. -/
structure Step (n : ℕ) where
  a : Fin n → ℝ
  b : Fin n → ℝ
  σ : Fin n → Fin n

/-- The step applied to a row. -/
def Step.apply {n : ℕ} (c : Step n) (y : Fin n → ℝ) : Fin n → ℝ := fun j => c.a j * y j + c.b j * y (c.σ j)

/-- The steps applied one after the other, first in the list first. -/
def runSteps {n : ℕ} : List (Step n) → (Fin n → ℝ) → (Fin n → ℝ)
  | [], y => y
  | c :: L, y => runSteps L (c.apply y)

@[simp] theorem runSteps_nil {n : ℕ} (y : Fin n → ℝ) : runSteps [] y = y := rfl
@[simp] theorem runSteps_cons {n : ℕ} (c : Step n) (L : List (Step n)) (y : Fin n → ℝ) :
    runSteps (c :: L) y = runSteps L (c.apply y) := rfl

/-- Running a list of steps and then a second list is running their concatenation. -/
theorem runSteps_append {n : ℕ} (L₁ L₂ : List (Step n)) (y : Fin n → ℝ) :
    runSteps (L₁ ++ L₂) y = runSteps L₂ (runSteps L₁ y) := by
  induction L₁ generalizing y with
  | nil => rfl
  | cons c L ih => exact ih (c.apply y)

/-- A step maps a combination ∑ k, x(k)·M(k) of rows to the same combination of the stepped rows. -/
theorem Step.apply_sum {n : ℕ} (c : Step n) {ι : Type*} (s : Finset ι) (x : ι → ℝ) (M : ι → Fin n → ℝ) :
    c.apply (fun j => ∑ k ∈ s, x k * M k j) = fun j => ∑ k ∈ s, x k * c.apply (M k) j := by
  funext j
  simp only [Step.apply, Finset.mul_sum, ← Finset.sum_add_distrib]
  exact Finset.sum_congr rfl fun k _ => by ring

/-- So does a composition of steps. -/
theorem runSteps_sum {n : ℕ} (L : List (Step n)) {ι : Type*} (s : Finset ι) (x : ι → ℝ) (M : ι → Fin n → ℝ) :
    runSteps L (fun j => ∑ k ∈ s, x k * M k j) = fun j => ∑ k ∈ s, x k * runSteps L (M k) j := by
  induction L generalizing M with
  | nil => rfl
  | cons c L ih => rw [runSteps_cons, Step.apply_sum, ih]; rfl

/-- Every row is the combination of the unit rows with its own entries as weights. -/
theorem row_eq_sum_units {n : ℕ} (y : Fin n → ℝ) :
    y = fun j => ∑ k, y k * (Pi.single k (1 : ℝ) : Fin n → ℝ) j := by
  funext j
  rw [Finset.sum_eq_single j]
  · simp
  · intro k _ hk; simp [Pi.single_apply, Ne.symm hk]
  · intro h; exact absurd (Finset.mem_univ j) h

/-- A COMPOSITION OF STEPS IS A MATRIX PRODUCT: entry j of the transformed row is the sum over k of the row's entry k
    times entry j of the transformed k-th unit row. -/
theorem runSteps_eq_matrix {n : ℕ} (L : List (Step n)) (y : Fin n → ℝ) (j : Fin n) :
    runSteps L y j = ∑ k, y k * runSteps L (Pi.single k (1 : ℝ)) j := by
  conv_lhs => rw [row_eq_sum_units y]
  rw [runSteps_sum]

end Cert.Butterfly
-- ==== Proof.Chain.lean ====
/-
  The ten butterfly stages one after the other, for any number of rows, and the same over real numbers.

  Stage s (s = 0 … 9) has half-span 2^s: 512 / 2^s groups of 2^(s+1) entries. On real data each stage is a pairwise
  linear step (Linear.lean) whose coefficients are the cosines and sines of row s of the angle table, so the chain of
  ten stages applied to an array of real rows is the composition of ten steps applied to each row.
-/
import proofs.«410151_j61942018343003_3_alg».proof.Proof.Stage
import proofs.«410151_j61942018343003_3_alg».proof.Proof.Linear

noncomputable section

open Idealize.ShloMosaic Idealize.ShloMosaic.ValueIdx

namespace Cert.Butterfly

/-- The shape relations of all ten stages, for R rows. -/
structure ChainEv (R : ℕ) : Prop where
  s0 : StageEv R 512 1 2 0
  s1 : StageEv R 256 2 4 1
  s2 : StageEv R 128 4 8 2
  s3 : StageEv R 64 8 16 3
  s4 : StageEv R 32 16 32 4
  s5 : StageEv R 16 32 64 5
  s6 : StageEv R 8 64 128 6
  s7 : StageEv R 4 128 256 7
  s8 : StageEv R 2 256 512 8
  s9 : StageEv R 1 512 1024 9

section Term
variable {F : FTy → Type} [FloatOps F]

/-- The ten stages in order, on a row-major [R, 1024] array. -/
def chain {R : ℕ} (ev : ChainEv R) (y : FVec F ⟨2, ![R, 1024]⟩ .f32) (ang : FVec F ⟨2, ![10, 512]⟩ .f32) :
    FVec F ⟨2, ![R, 1024]⟩ .f32 :=
  stage ev.s9 (stage ev.s8 (stage ev.s7 (stage ev.s6 (stage ev.s5 (stage ev.s4 (stage ev.s3 (stage ev.s2
    (stage ev.s1 (stage ev.s0 y ang) ang) ang) ang) ang) ang) ang) ang) ang) ang

end Term

/-- A stage's real step: its cosine and sine coefficients and its pairing. -/
def realStep {G H S : ℕ} (hS : H + H = S) (hN : G * S = 1024) (hT : G * H = 512) (θ : Fin 512 → ℝ) : Step 1024 :=
  ⟨coefAr hS hN hT θ, coefBr hS hN hT θ, sigma hS hN⟩

/-- The ten real steps of an angle table. -/
def realSteps (θr : Fin 10 → Fin 512 → ℝ) : List (Step 1024) :=
  [realStep (G := 512) (H := 1) (S := 2) (by norm_num) (by norm_num) (by norm_num) (θr 0),
   realStep (G := 256) (H := 2) (S := 4) (by norm_num) (by norm_num) (by norm_num) (θr 1),
   realStep (G := 128) (H := 4) (S := 8) (by norm_num) (by norm_num) (by norm_num) (θr 2),
   realStep (G := 64) (H := 8) (S := 16) (by norm_num) (by norm_num) (by norm_num) (θr 3),
   realStep (G := 32) (H := 16) (S := 32) (by norm_num) (by norm_num) (by norm_num) (θr 4),
   realStep (G := 16) (H := 32) (S := 64) (by norm_num) (by norm_num) (by norm_num) (θr 5),
   realStep (G := 8) (H := 64) (S := 128) (by norm_num) (by norm_num) (by norm_num) (θr 6),
   realStep (G := 4) (H := 128) (S := 256) (by norm_num) (by norm_num) (by norm_num) (θr 7),
   realStep (G := 2) (H := 256) (S := 512) (by norm_num) (by norm_num) (by norm_num) (θr 8),
   realStep (G := 1) (H := 512) (S := 1024) (by norm_num) (by norm_num) (by norm_num) (θr 9)]

/-- ONE MORE STAGE: if an array's rows are the steps L applied to real rows, its image under a stage is L followed by
    that stage's real step, applied to the same rows. -/
theorem stage_runSteps {R G H S : ℕ} (s : Fin 10) (ev : StageEv R G H S s.val) (hS : H + H = S) (hN : G * S = 1024) (hT : G * H = 512)
    (y : FVec Ideal ⟨2, ![R, 1024]⟩ .f32) (ang : FVec Ideal ⟨2, ![10, 512]⟩ .f32)
    (L : List (Step 1024)) (yr : Fin R → Fin 1024 → ℝ) (θr : Fin 10 → Fin 512 → ℝ)
    (hy : ∀ r j, y (ix2 r j) = ((runSteps L (yr r) j : ℝ) : EReal)) (hθ : ∀ a b, ang (ix2 a b) = ((θr a b : ℝ) : EReal))
    (r : Fin R) (j : Fin 1024) :
    stage ev y ang (ix2 r j) = ((runSteps (L ++ [realStep hS hN hT (θr s)]) (yr r) j : ℝ) : EReal) := by
  rw [stage_apply_real s ev hS hN hT y ang (fun r => runSteps L (yr r)) θr hy hθ r j, runSteps_append]
  rfl

/-- THE CHAIN ON REAL DATA: on an array of real rows and a real angle table, entry (r, j) of the chain's result is
    entry j of the ten real steps applied to row r. -/
theorem chain_real {R : ℕ} (ev : ChainEv R) (y : FVec Ideal ⟨2, ![R, 1024]⟩ .f32) (ang : FVec Ideal ⟨2, ![10, 512]⟩ .f32)
    (yr : Fin R → Fin 1024 → ℝ) (θr : Fin 10 → Fin 512 → ℝ)
    (hy : ∀ r j, y (ix2 r j) = ((yr r j : ℝ) : EReal)) (hθ : ∀ a b, ang (ix2 a b) = ((θr a b : ℝ) : EReal))
    (r : Fin R) (j : Fin 1024) :
    chain ev y ang (ix2 r j) = ((runSteps (realSteps θr) (yr r) j : ℝ) : EReal) := by
  have h0 := stage_runSteps (G := 512) (H := 1) (S := 2) 0 ev.s0 (by norm_num) (by norm_num) (by norm_num) y ang [] yr θr hy hθ
  have h1 := stage_runSteps (G := 256) (H := 2) (S := 4) 1 ev.s1 (by norm_num) (by norm_num) (by norm_num) (stage ev.s0 y ang) ang _ yr θr h0 hθ
  have h2 := stage_runSteps (G := 128) (H := 4) (S := 8) 2 ev.s2 (by norm_num) (by norm_num) (by norm_num) (stage ev.s1 (stage ev.s0 y ang) ang) ang _ yr θr h1 hθ
  have h3 := stage_runSteps (G := 64) (H := 8) (S := 16) 3 ev.s3 (by norm_num) (by norm_num) (by norm_num) _ ang _ yr θr h2 hθ
  have h4 := stage_runSteps (G := 32) (H := 16) (S := 32) 4 ev.s4 (by norm_num) (by norm_num) (by norm_num) _ ang _ yr θr h3 hθ
  have h5 := stage_runSteps (G := 16) (H := 32) (S := 64) 5 ev.s5 (by norm_num) (by norm_num) (by norm_num) _ ang _ yr θr h4 hθ
  have h6 := stage_runSteps (G := 8) (H := 64) (S := 128) 6 ev.s6 (by norm_num) (by norm_num) (by norm_num) _ ang _ yr θr h5 hθ
  have h7 := stage_runSteps (G := 4) (H := 128) (S := 256) 7 ev.s7 (by norm_num) (by norm_num) (by norm_num) _ ang _ yr θr h6 hθ
  have h8 := stage_runSteps (G := 2) (H := 256) (S := 512) 8 ev.s8 (by norm_num) (by norm_num) (by norm_num) _ ang _ yr θr h7 hθ
  have h9 := stage_runSteps (G := 1) (H := 512) (S := 1024) 9 ev.s9 (by norm_num) (by norm_num) (by norm_num) _ ang _ yr θr h8 hθ
  exact h9 r j

end Cert.Butterfly

end
-- ==== Proof.KerHost.lean ====
/-
  What the kernel's host code hands to the region.

  Before the region the host builds the 1024 × 1024 identity matrix, runs the ten butterfly stages on it (the same
  stage operations the reference applies to x, on 1024 rows), and splits the result W into a leading part w_hi and a
  remainder w_lo = W − w_hi. On the extended reals a change of float format is the identity, so w_hi = W and
  w_lo = W − W entry by entry.
-/
import proofs.«410151_j61942018343003_3_alg».proof.Proof.KerArrays
import proofs.«410151_j61942018343003_3_alg».proof.Proof.Chain
import Idealize.ShloMosaic.Lib.StableHlo.Run
import Idealize.ShloMosaic.Lib.StableHlo.Predicate

noncomputable section

namespace Cert.KernelIdeal.Host

open Cert.KernelIdeal Cert.KernelIdeal.Gen Idealize.ShloMosaic Idealize.ShloMosaic.TcCoe Idealize.SL.Sem
open Idealize.ShloMosaic.ValueIdx Cert.Butterfly Cert.KernelIdeal.Arr

variable (m : (ℓ : Loc nD τ sig) → Buf (Elt Ideal) ℓ)

/-- The ten stages' shape relations on 1024 rows. -/
theorem kerEv : ChainEv 1024 := by
  refine ⟨?_, ?_, ?_, ?_, ?_, ?_, ?_, ?_, ?_, ?_⟩ <;> constructor <;> decide

/-! ## The list read stage by stage

The host's operations form one list of 221: seven build the matrix, each stage is twenty-one, four split the result.
A stage reads its input array four times, so the list is read stage by stage: the buffers after the first a
operations are named once, and each stretch is computed over the buffers before it. -/

/-- The device's buffers after the first a host operations. -/
def P (c : Dev nD) (a : ℕ) : Valuation τ sig (Elt Ideal) :=
  StableHlo.after ((hostOps0 (F := Ideal)).take a) (fun b => m (c, b))

/-- The buffers after a + n operations are the next n operations run over the buffers after a. -/
theorem P_add (c : Dev nD) (a n : ℕ) :
    P m c (a + n) = StableHlo.after (((hostOps0 (F := Ideal)).drop a).take n) (P m c a) := by
  unfold P
  rw [List.take_add, StableHlo.after_append]

/-- What the region finds is the remaining operations run over the buffers after a. -/
theorem V_eq_P (c : Dev nD) (a : ℕ) (b : Ref sig .tc) :
    V m c b = StableHlo.after ((hostOps0 (F := Ideal)).drop a) (P m c a) b := by
  unfold P
  rw [← StableHlo.after_append, List.take_append_drop]

set_option maxRecDepth 8192 in
set_option maxHeartbeats 2000000 in
/-- No host operation writes the angle table. -/
theorem not_writes_arg1 : ∀ op ∈ (hostOps0 (F := Ideal) : List (HloOp τ sig (Elt Ideal))),
    (Proc.devRef .tc main_arg1 : DevRef τ sig) ∉ op.writes :=
  List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide))

/-- So the angle table is as launched after any number of the operations. -/
theorem P_arg1 (c : Dev nD) (a : ℕ) : P m c a main_arg1 = angarr m c := by
  rw [angarr_eq]
  exact StableHlo.after_of_forall_not_mem _ _ fun op h => not_writes_arg1 op (List.mem_of_mem_take h)

set_option maxRecDepth 8192 in
set_option maxHeartbeats 2000000 in
/-- The matrix built by the first seven operations is not written again. -/
theorem eye_eq_P (c : Dev nD) : eye m c = P m c 7 main_v5 := by
  unfold eye
  rw [V_eq_P m c 7]
  exact StableHlo.after_of_forall_not_mem (b := Proc.devRef .tc main_v5) _ _ (List.forall_iff_forall_mem.mp (by
    simp only [hostOps0, List.drop_succ_cons, List.drop_zero, List.Forall, StableHlo.nullary_writes, StableHlo.unary_writes,
      StableHlo.binary_writes, StableHlo.reshape_writes, Finset.mem_singleton]
    repeat' apply And.intro
    all_goals exact StableHlo.devRef_ne_of_ne (by decide)))

/-- One entry of the matrix: the word comparing the row number with the column number, read as a number. -/
theorem eye_entry (k j : Fin 1024) :
    (((IntOp.cmpi .eq (IntOp.addi (BitVec.ofNat 32 k.val) 0#32) (BitVec.ofNat 32 j.val)).toNat : ℝ) : EReal)
      = (((Pi.single k (1 : ℝ) : Fin 1024 → ℝ) j : ℝ) : EReal) := by
  have hk : (BitVec.ofNat 32 k.val).toNat = k.val := by
    rw [BitVec.toNat_ofNat]; exact Nat.mod_eq_of_lt (Nat.lt_of_lt_of_le k.isLt (by norm_num))
  have hj : (BitVec.ofNat 32 j.val).toNat = j.val := by
    rw [BitVec.toNat_ofNat]; exact Nat.mod_eq_of_lt (Nat.lt_of_lt_of_le j.isLt (by norm_num))
  have h0 : IntOp.addi (BitVec.ofNat 32 k.val) 0#32 = BitVec.ofNat 32 k.val := by
    unfold IntOp.addi; exact BitVec.add_zero _
  rw [h0, Pi.single_apply]
  by_cases h : j = k
  · subst h
    rw [if_pos rfl, StableHlo.Predicate.cmpi_eq_iff.mpr rfl]
    norm_num
  · rw [if_neg h]
    have hne : (BitVec.ofNat 32 k.val == BitVec.ofNat 32 j.val) = false := by
      rw [beq_eq_false_iff_ne]
      intro e
      apply h
      have := congrArg BitVec.toNat e
      rw [hk, hj] at this
      exact (Fin.ext this).symm
    have hz : IntOp.cmpi .eq (BitVec.ofNat 32 k.val) (BitVec.ofNat 32 j.val) = 0#1 := by
      unfold IntOp.cmpi
      simp only [hne]
      rfl
    rw [hz]
    norm_num

set_option maxRecDepth 8192 in
set_option maxHeartbeats 2000000 in
/-- THE MATRIX IT STARTS FROM is the identity: 1 on the diagonal, 0 elsewhere. -/
theorem V_eye (c : Dev nD) (k j : Fin 1024) :
    eye m c (ix2 k j) = (((Pi.single k (1 : ℝ) : Fin 1024 → ℝ) j : ℝ) : EReal) := by
  rw [eye_eq_P, ← eye_entry]
  unfold P
  simp only [hostOps0, List.take_succ_cons, List.take_zero]
  after_results
  rfl

set_option maxRecDepth 8192 in
set_option maxHeartbeats 4000000 in
/-- Operations 8 to 28 are stage 0. -/
theorem P_stage0 (c : Dev nD) :
    P m c 28 main_v26 = stage (F := Ideal) kerEv.s0 (P m c 7 main_v5) (P m c 7 main_arg1) := by
  rw [show (28 : ℕ) = 7 + 21 from rfl, P_add]
  generalize P m c 7 = W
  simp only [hostOps0, List.drop_succ_cons, List.drop_zero, List.take_succ_cons, List.take_zero]
  after_results
  rfl

set_option maxRecDepth 8192 in
set_option maxHeartbeats 4000000 in
/-- Operations 29 to 49 are stage 1. -/
theorem P_stage1 (c : Dev nD) :
    P m c 49 main_v47 = stage (F := Ideal) kerEv.s1 (P m c 28 main_v26) (P m c 28 main_arg1) := by
  rw [show (49 : ℕ) = 28 + 21 from rfl, P_add]
  generalize P m c 28 = W
  simp only [hostOps0, List.drop_succ_cons, List.drop_zero, List.take_succ_cons, List.take_zero]
  after_results
  rfl

set_option maxRecDepth 8192 in
set_option maxHeartbeats 4000000 in
/-- Operations 50 to 70 are stage 2. -/
theorem P_stage2 (c : Dev nD) :
    P m c 70 main_v68 = stage (F := Ideal) kerEv.s2 (P m c 49 main_v47) (P m c 49 main_arg1) := by
  rw [show (70 : ℕ) = 49 + 21 from rfl, P_add]
  generalize P m c 49 = W
  simp only [hostOps0, List.drop_succ_cons, List.drop_zero, List.take_succ_cons, List.take_zero]
  after_results
  rfl

set_option maxRecDepth 8192 in
set_option maxHeartbeats 4000000 in
/-- Operations 71 to 91 are stage 3. -/
theorem P_stage3 (c : Dev nD) :
    P m c 91 main_v89 = stage (F := Ideal) kerEv.s3 (P m c 70 main_v68) (P m c 70 main_arg1) := by
  rw [show (91 : ℕ) = 70 + 21 from rfl, P_add]
  generalize P m c 70 = W
  simp only [hostOps0, List.drop_succ_cons, List.drop_zero, List.take_succ_cons, List.take_zero]
  after_results
  rfl

set_option maxRecDepth 8192 in
set_option maxHeartbeats 4000000 in
/-- Operations 92 to 112 are stage 4. -/
theorem P_stage4 (c : Dev nD) :
    P m c 112 main_v110 = stage (F := Ideal) kerEv.s4 (P m c 91 main_v89) (P m c 91 main_arg1) := by
  rw [show (112 : ℕ) = 91 + 21 from rfl, P_add]
  generalize P m c 91 = W
  simp only [hostOps0, List.drop_succ_cons, List.drop_zero, List.take_succ_cons, List.take_zero]
  after_results
  rfl

set_option maxRecDepth 8192 in
set_option maxHeartbeats 4000000 in
/-- Operations 113 to 133 are stage 5. -/
theorem P_stage5 (c : Dev nD) :
    P m c 133 main_v131 = stage (F := Ideal) kerEv.s5 (P m c 112 main_v110) (P m c 112 main_arg1) := by
  rw [show (133 : ℕ) = 112 + 21 from rfl, P_add]
  generalize P m c 112 = W
  simp only [hostOps0, List.drop_succ_cons, List.drop_zero, List.take_succ_cons, List.take_zero]
  after_results
  rfl

set_option maxRecDepth 8192 in
set_option maxHeartbeats 4000000 in
/-- Operations 134 to 154 are stage 6. -/
theorem P_stage6 (c : Dev nD) :
    P m c 154 main_v152 = stage (F := Ideal) kerEv.s6 (P m c 133 main_v131) (P m c 133 main_arg1) := by
  rw [show (154 : ℕ) = 133 + 21 from rfl, P_add]
  generalize P m c 133 = W
  simp only [hostOps0, List.drop_succ_cons, List.drop_zero, List.take_succ_cons, List.take_zero]
  after_results
  rfl

set_option maxRecDepth 8192 in
set_option maxHeartbeats 4000000 in
/-- Operations 155 to 175 are stage 7. -/
theorem P_stage7 (c : Dev nD) :
    P m c 175 main_v173 = stage (F := Ideal) kerEv.s7 (P m c 154 main_v152) (P m c 154 main_arg1) := by
  rw [show (175 : ℕ) = 154 + 21 from rfl, P_add]
  generalize P m c 154 = W
  simp only [hostOps0, List.drop_succ_cons, List.drop_zero, List.take_succ_cons, List.take_zero]
  after_results
  rfl

set_option maxRecDepth 8192 in
set_option maxHeartbeats 4000000 in
/-- Operations 176 to 196 are stage 8. -/
theorem P_stage8 (c : Dev nD) :
    P m c 196 main_v194 = stage (F := Ideal) kerEv.s8 (P m c 175 main_v173) (P m c 175 main_arg1) := by
  rw [show (196 : ℕ) = 175 + 21 from rfl, P_add]
  generalize P m c 175 = W
  simp only [hostOps0, List.drop_succ_cons, List.drop_zero, List.take_succ_cons, List.take_zero]
  after_results
  rfl

set_option maxRecDepth 8192 in
set_option maxHeartbeats 4000000 in
/-- Operations 197 to 217 are stage 9. -/
theorem P_stage9 (c : Dev nD) :
    P m c 217 main_v215 = stage (F := Ideal) kerEv.s9 (P m c 196 main_v194) (P m c 196 main_arg1) := by
  rw [show (217 : ℕ) = 196 + 21 from rfl, P_add]
  generalize P m c 196 = W
  simp only [hostOps0, List.drop_succ_cons, List.drop_zero, List.take_succ_cons, List.take_zero]
  after_results
  rfl

set_option maxRecDepth 8192 in
set_option maxHeartbeats 2000000 in
/-- The table is the flat array the tenth stage wrote: the last four operations do not write it again. -/
theorem wtab_eq_P (c : Dev nD) : wtab m c = P m c 217 main_v215 := by
  unfold wtab
  rw [V_eq_P m c 217]
  generalize P m c 217 = W
  simp only [hostOps0, List.drop_succ_cons, List.drop_zero]
  after_results

/-- THE TABLE: the array the host converts and splits is the ten stages applied to the matrix it built first. -/
theorem V_table (c : Dev nD) : wtab m c = chain (F := Ideal) kerEv (eye m c) (angarr m c) := by
  rw [wtab_eq_P, P_stage9, P_stage8, P_stage7, P_stage6, P_stage5, P_stage4, P_stage3, P_stage2, P_stage1, P_stage0,
    ← eye_eq_P]
  rw [P_arg1 m c 196, P_arg1 m c 175, P_arg1 m c 154, P_arg1 m c 133, P_arg1 m c 112, P_arg1 m c 91, P_arg1 m c 70,
    P_arg1 m c 49, P_arg1 m c 28, P_arg1 m c 7]
  rfl

set_option maxRecDepth 8192 in
set_option maxHeartbeats 2000000 in
/-- The leading part is the table converted to the short format. -/
theorem whi_eq (c : Dev nD) : whi m c = truncf .bf16 (wtab m c) bitsLt_bf16_f32 := by
  rw [wtab_eq_P]
  unfold whi
  rw [V_eq_P m c 217]
  generalize P m c 217 = W
  simp only [hostOps0, List.drop_succ_cons, List.drop_zero]
  after_results
  try rfl

set_option maxRecDepth 8192 in
set_option maxHeartbeats 2000000 in
/-- The remainder is the table minus its leading part converted back, converted to the short format. -/
theorem wlo_eq (c : Dev nD) :
    wlo m c = truncf .bf16 (subf (wtab m c) (extf .f32 (truncf .bf16 (wtab m c) bitsLt_bf16_f32) bitsLt_bf16_f32))
      bitsLt_bf16_f32 := by
  rw [wtab_eq_P]
  unfold wlo
  rw [V_eq_P m c 217]
  generalize P m c 217 = W
  simp only [hostOps0, List.drop_succ_cons, List.drop_zero]
  after_results
  try rfl

/-- The leading part is the table itself, entry by entry. -/
theorem V_hi (c : Dev nD) (i : S1024x1024.Idx) : whi m c i = wtab m c i := by
  rw [whi_eq]
  rfl

/-- The remainder is the table minus itself, entry by entry. -/
theorem V_lo (c : Dev nD) (i : S1024x1024.Idx) : wlo m c i = wtab m c i - wtab m c i := by
  rw [wlo_eq]
  rfl

end Cert.KernelIdeal.Host

end
-- ==== Proof.KerValue.lean ====
/-
  The kernel's result array, entry by entry.

  Grid point t handles rows 1024·t … 1024·t + 1023: it loads that block of x and the two whole 1024 × 1024 tables, and
  stores the sum of three matrix products into the same rows of the result. The sixteen blocks tile the result, so
  entry (r, j) of the final array is the stored value of the point that owns row r.
-/
import proofs.«410151_j61942018343003_3_alg».proof.Proof.Gen.KernelIdeal.Value
import proofs.«410151_j61942018343003_3_alg».proof.Proof.KerArrays
import Idealize.ShloMosaic.Lib.Pipeline.Value
import Idealize.ShloMosaic.Lib.ValueIdx
import Idealize.ShloMosaic.PureOps.Ideal.Laws

noncomputable section

open scoped BigOperators

namespace Cert.KernelIdeal.Closed

open Cert.KernelIdeal Cert.KernelIdeal.Gen Idealize.ShloMosaic Idealize.ShloMosaic.TcCoe Idealize.SL.Sem
open Idealize.ShloMosaic.ValueIdx Cert.KernelIdeal.Arr
open Idealize.ShloMosaic.Pipeline (Dat)

/-! ## One matrix product at an entry -/

/-- The left factor's index at output entry `i` and contraction position `q`: its row is the output's row, -/
theorem lhs_axis0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
/-- and its column is the contraction position. -/
theorem lhs_axis1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- The right factor's index: its row is the contraction position, -/
theorem rhs_axis0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- and its column is the output's column. -/
theorem rhs_axis1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- A 1024 × 1024 product accumulated into zero, at entry (p, q): the sum over the 1024 inner positions of row p of the
    left factor against column q of the right. -/
theorem product_apply (a : FVec Ideal S1024x1024 .bf16) (b : FVec Ideal S1024x1024 .bf16) (p q : Fin 1024) :
    matmul dot_S1024x1024_S1024x1024_S1024x1024_1_0_0_1_n_n none a b (constant (F := Ideal) S1024x1024 .f32 0x00000000#32) (ix2 p q)
      = ∑ k : Fin 1024, a (ix2 p k) * b (ix2 k q) := by
  simp only [matmul]
  rw [Ideal.matmul_constant_zero_apply,
    ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q)
      ((contrEquiv1 dot_S1024x1024_S1024x1024_S1024x1024_1_0_0_1_n_n 1024 rfl rfl).symm k) = ix2 p k :=
    funext fun d => Fin.ext (by
      match d with
      | ⟨0, _⟩ => exact lhs_axis0 _ _
      | ⟨1, _⟩ => exact (lhs_axis1 _ _).trans hk)
  have er : dot_S1024x1024_S1024x1024_S1024x1024_1_0_0_1_n_n.rhsIdx (ix2 p q)
      ((contrEquiv1 dot_S1024x1024_S1024x1024_S1024x1024_1_0_0_1_n_n 1024 rfl rfl).symm k) = ix2 k q :=
    funext fun d => Fin.ext (by
      match d with
      | ⟨0, _⟩ => exact (rhs_axis0 _ _).trans hk
      | ⟨1, _⟩ => exact rhs_axis1 _ _)
  rw [el, er]

/-! ## The stored block at an entry -/

/-- What the body stores, at entry (p, q) of its block: the block of x against the first table, plus against the
    second, plus the difference x − x against the first. -/
theorem stored_apply (x0 : FVec Ideal S1024x1024 .f32) (w1 w2 : FVec Ideal S1024x1024 .bf16) (p q : Fin 1024) :
    k0_pay1 x0 w1 w2 (ix2 p q)
      = (∑ k : Fin 1024, x0 (ix2 p k) * w1 (ix2 k q))
        + (∑ k : Fin 1024, x0 (ix2 p k) * w2 (ix2 k q))
        + ∑ k : Fin 1024, (x0 (ix2 p k) - x0 (ix2 p k)) * w1 (ix2 k q) := by
  unfold k0_pay1
  simp only [shapeCast_self]
  rw [addf_apply, addf_apply, product_apply, product_apply, product_apply]
  rfl

/-! ## The whole result as one function of the three arrays -/

/-- Entry (r, j) of x·w₁ + x·w₂ + (x − x)·w₁ for whole arrays x [16384, 1024] and w₁, w₂ [1024, 1024]. -/
def entryOf (X : FVec Ideal S16384x1024 .f32) (W1 W2 : FVec Ideal S1024x1024 .bf16) (r : Fin 16384) (j : Fin 1024) : EReal :=
  (∑ k : Fin 1024, X (ix2 r k) * W1 (ix2 k j))
    + (∑ k : Fin 1024, X (ix2 r k) * W2 (ix2 k j))
    + ∑ k : Fin 1024, (X (ix2 r k) - X (ix2 r k)) * W1 (ix2 k j)

/-- That array, index by index. -/
def resultOf (X : FVec Ideal S16384x1024 .f32) (W1 W2 : FVec Ideal S1024x1024 .bf16) : FVec Ideal S16384x1024 .f32 :=
  fun i => entryOf X W1 W2 ⟨(i 0).val, idx2_lt0 i⟩ ⟨(i 1).val, idx2_lt1 i⟩

/-- A stored block is the matching rows of `resultOf`: if the block of x holds rows 1024·b … of X and the two tables are
    whole, entry y of what the body stores is entry (1024·b + y₀, y₁) of `resultOf`. -/
theorem stored_eq_resultOf (X : FVec Ideal S16384x1024 .f32) (W1 W2 : FVec Ideal S1024x1024 .bf16)
    (x0 : FVec Ideal S1024x1024 .f32) (w1 w2 : FVec Ideal S1024x1024 .bf16)
    (y : S1024x1024.Idx) (i : S16384x1024.Idx) (hi1 : (i 1).val = (y 1).val)
    (hx : ∀ k : Fin 1024, x0 (ix2 ⟨(y 0).val, idx2_lt0 y⟩ k) = X (ix2 ⟨(i 0).val, idx2_lt0 i⟩ k))
    (h1 : w1 = W1) (h2 : w2 = W2) :
    k0_pay1 x0 w1 w2 y = resultOf X W1 W2 i := by
  subst h1 h2
  obtain ⟨p, q, rfl⟩ : ∃ (p : Fin 1024) (q : Fin 1024), y = ix2 p q := ⟨y 0, y 1, eq_ix2 y⟩
  rw [stored_apply]
  have hq : (⟨(i 1).val, idx2_lt1 i⟩ : Fin 1024) = q := Fin.ext hi1
  unfold resultOf entryOf
  rw [hq]
  simp only [← hx]

variable (m : (ℓ : Loc nD τ sig) → Buf (Elt Ideal) ℓ)

/-- The result array the kernel is shown to leave: `resultOf` of x and the two tables as the region finds them. -/
def result (c : Dev nD) : FVec Ideal S16384x1024 .f32 := resultOf (xarr m c) (whi m c) (wlo m c)

/-- The body's one load and one store rectangle start at the block's origin. -/
theorem offsets_zero : (![0, 0] : Fin 2 → Nat) = fun _ => 0 := funext fun a => by fin_cases a <;> rfl

/-- The printed index maps, decided over the sixteen points: point t's blocks of x and of the result are block row t,
    and the two tables' block is the whole table. -/
theorem index_facts : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- WHAT POINT t WRITES BACK is rows 1024·t … 1024·t + 1023 of `result`. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero offsets_zero]
  simp only [View.ld_unit_zero (S := S1024x1024) offsets_zero]
  obtain ⟨e0, e1, e2, e3, e4, e5, e6, e7⟩ := index_facts t
  funext y
  show k0_pay1 (iblk m c 0 t) (iblk m c 1 t) (iblk m c 2 t) y
    = resultOf (xarr m c) (whi m c) (wlo m c) (((cfg0.win 3).blk t).view.emb y)
  have hy0 : (y 0).val < 1024 := idx2_lt0 y
  have hy1 : (y 1).val < 1024 := idx2_lt1 y
  refine stored_eq_resultOf (xarr m c) (whi m c) (wlo m c) _ _ _ y _ ?_ ?_ ?_ ?_
  · show win0_3.index t (1 : Fin 2) * 1024 + 1 * (y 1).val = (y 1).val
    omega
  · intro k
    show V m c main_arg0 (((cfg0.win 0).blk t).view.emb (ix2 ⟨(y 0).val, idx2_lt0 y⟩ k)) = V m c main_arg0 _
    refine congrArg (V m c main_arg0) (funext fun a => Fin.ext ?_)
    match a with
    | ⟨0, _⟩ => show win0_0.index t (0 : Fin 2) * 1024 + 1 * (y 0).val = win0_3.index t (0 : Fin 2) * 1024 + 1 * (y 0).val; omega
    | ⟨1, _⟩ => show win0_0.index t (1 : Fin 2) * 1024 + 1 * k.val = k.val; omega
  · funext z
    show V m c main_v216 (((cfg0.win 1).blk t).view.emb z) = V m c main_v216 z
    refine congrArg (V m c main_v216) (funext fun a => Fin.ext ?_)
    match a with
    | ⟨0, _⟩ => show win0_1.index t (0 : Fin 2) * 1024 + 1 * (z 0).val = (z 0).val; omega
    | ⟨1, _⟩ => show win0_1.index t (1 : Fin 2) * 1024 + 1 * (z 1).val = (z 1).val; omega
  · funext z
    show V m c main_v219 (((cfg0.win 2).blk t).view.emb z) = V m c main_v219 z
    refine congrArg (V m c main_v219) (funext fun a => Fin.ext ?_)
    match a with
    | ⟨0, _⟩ => show win0_2.index t (0 : Fin 2) * 1024 + 1 * (z 0).val = (z 0).val; omega
    | ⟨1, _⟩ => show win0_2.index t (1 : Fin 2) * 1024 + 1 * (z 1).val = (z 1).val; omega

/-- An index of the result is in point t's block iff each coordinate is in the block's range on its axis. -/
theorem mem_block (t : Fin cfg0.N) (i : S16384x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v220).slice (win0_3.rect t)).set ↔ _
  rw [View.set_slice_whole, Rect.mem_set_unit]
  exact Iff.rfl

/-- Row r of the result lies in the block of point r / 1024: the sixteen blocks cover the array. -/
theorem covered (i : S16384x1024.Idx) :
    ∃ t : Fin cfg0.N, (cfg0.win 3).flush t = true ∧ i ∈ ((cfg0.win 3).blk t).view.set := by
  have hi0 : (i 0).val < 16384 := idx2_lt0 i
  have hi1 : (i 1).val < 1024 := idx2_lt1 i
  have hN : cfg0.N = 16 := N_0
  let t : Fin cfg0.N := ⟨(i 0).val / 1024, by rw [hN]; omega⟩
  obtain ⟨e0, e1, -⟩ := index_facts t
  have et : t.val = (i 0).val / 1024 := rfl
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- THE RESULT ARRAY after the sixteen points is `result`. -/
theorem outarr_eq (c : Dev nD) : outarr m c = result m c :=
  (dats m 0 c).arrAt_eq_of_cover 3 (result m c) (fun t _ => flushed_eq m c t) covered

/-- THE RESULT ARRAY AT AN INDEX: entry (r, j) after the run is x·w_hi + x·w_lo + (x − x)·w_hi at (r, j), the three
    products as sums over the 1024 columns of x, with x, w_hi and w_lo the arrays the region finds. -/
theorem arr_apply (c : Dev nD) (r : Fin 16384) (j : Fin 1024) :
    outarr m c (ix2 r j)
      = (∑ k : Fin 1024, xarr m c (ix2 r k) * whi m c (ix2 k j))
        + (∑ k : Fin 1024, xarr m c (ix2 r k) * wlo m c (ix2 k j))
        + ∑ k : Fin 1024, (xarr m c (ix2 r k) - xarr m c (ix2 r k)) * whi m c (ix2 k j) := by
  rw [outarr_eq]
  rfl

end Cert.KernelIdeal.Closed

end
-- ==== Proof.LibFinite.lean ====
/-
  General facts on the extended reals and on arrays of extended reals: which
  operations keep a value finite (a real number), and the distributive law of a
  product over a sum inside a finite sum, which holds for finite terms.
-/
import Idealize.ShloMosaic.PureOps.Ideal
import Idealize.ShloMosaic.PureOps.Ideal.Laws
import Idealize.ShloMosaic.Lib.ValueIdx

noncomputable section

namespace Cert.Fin

open Idealize.ShloMosaic
open scoped BigOperators

/-- An extended real is finite when it is (the image of) a real number. -/
def IsFin (x : EReal) : Prop := ∃ r : ℝ, x = (r : EReal)

/-- An array of extended reals is finite when every entry is. -/
def AllFin {ι : Type*} (v : ι → EReal) : Prop := ∀ i, IsFin (v i)

/-- A real number, read as an extended real, is finite. -/
theorem isFin_coe (r : ℝ) : IsFin (r : EReal) := ⟨r, rfl⟩

/-- Zero is finite. -/
theorem isFin_zero : IsFin 0 := ⟨0, rfl⟩

/-- One is finite. -/
theorem isFin_one : IsFin 1 := ⟨1, rfl⟩

/-- A finite value is neither infinity. -/
theorem IsFin.ne_top {x : EReal} (h : IsFin x) : x ≠ ⊤ := by
  obtain ⟨r, rfl⟩ := h; exact EReal.coe_ne_top r

/-- A finite value is neither infinity. -/
theorem IsFin.ne_bot {x : EReal} (h : IsFin x) : x ≠ ⊥ := by
  obtain ⟨r, rfl⟩ := h; exact EReal.coe_ne_bot r

/-- A value that is neither infinity is finite. -/
theorem isFin_of_ne {x : EReal} (ht : x ≠ ⊤) (hb : x ≠ ⊥) : IsFin x := by
  induction x using EReal.rec with
  | bot => exact absurd rfl hb
  | top => exact absurd rfl ht
  | coe r => exact ⟨r, rfl⟩

/-- Finite exactly when neither infinity. -/
theorem isFin_iff {x : EReal} : IsFin x ↔ x ≠ ⊤ ∧ x ≠ ⊥ :=
  ⟨fun h => ⟨h.ne_top, h.ne_bot⟩, fun h => isFin_of_ne h.1 h.2⟩

/-- The sum of two finite values is finite. -/
theorem IsFin.add {a b : EReal} (ha : IsFin a) (hb : IsFin b) : IsFin (a + b) := by
  obtain ⟨r, rfl⟩ := ha; obtain ⟨s, rfl⟩ := hb
  exact ⟨r + s, (EReal.coe_add r s).symm⟩

/-- The product of two finite values is finite. -/
theorem IsFin.mul {a b : EReal} (ha : IsFin a) (hb : IsFin b) : IsFin (a * b) := by
  obtain ⟨r, rfl⟩ := ha; obtain ⟨s, rfl⟩ := hb
  exact ⟨r * s, (EReal.coe_mul r s).symm⟩

/-- The negation of a finite value is finite. -/
theorem IsFin.neg {a : EReal} (ha : IsFin a) : IsFin (-a) := by
  obtain ⟨r, rfl⟩ := ha
  exact ⟨-r, (EReal.coe_neg r).symm⟩

/-- The difference of two finite values is finite. -/
theorem IsFin.sub {a b : EReal} (ha : IsFin a) (hb : IsFin b) : IsFin (a - b) := by
  obtain ⟨r, rfl⟩ := ha; obtain ⟨s, rfl⟩ := hb
  exact ⟨r - s, (EReal.coe_sub r s).symm⟩

/-- The maximum of two finite values is finite. -/
theorem IsFin.max {a b : EReal} (ha : IsFin a) (hb : IsFin b) : IsFin (max a b) := by
  rcases max_choice a b with h | h <;> rw [h] <;> assumption

/-- The minimum of two finite values is finite. -/
theorem IsFin.min {a b : EReal} (ha : IsFin a) (hb : IsFin b) : IsFin (min a b) := by
  rcases min_choice a b with h | h <;> rw [h] <;> assumption

/-- A finite sum of finite values is finite. -/
theorem isFin_sum {ι : Type*} (s : Finset ι) (f : ι → EReal) (h : ∀ i ∈ s, IsFin (f i)) :
    IsFin (∑ i ∈ s, f i) := by
  classical
  induction s using Finset.induction_on with
  | empty => simpa using isFin_zero
  | insert a s ha ih =>
    rw [Finset.sum_insert ha]
    exact (h a (Finset.mem_insert_self a s)).add (ih fun i hi => h i (Finset.mem_insert_of_mem hi))

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite array is the coercion of an array of reals. -/
theorem AllFin.exists_real {ι : Type*} {v : ι → EReal} (h : AllFin v) :
    ∃ r : ι → ℝ, ∀ i, v i = (r i : EReal) := by
  choose r hr using h
  exact ⟨r, hr⟩

/-- Inside a finite sum, a product distributes over a sum of two finite terms. -/
theorem sum_mul_add2 {K : ℕ} (x a b : Fin K → EReal) (hx : AllFin x) (ha : AllFin a) (hb : AllFin b) :
    ∑ k, x k * (a k + b k) = (∑ k, x k * a k) + ∑ k, x k * b k := by
  obtain ⟨xr, hxr⟩ := hx.exists_real
  obtain ⟨ar, har⟩ := ha.exists_real
  obtain ⟨br, hbr⟩ := hb.exists_real
  simp only [hxr, har, hbr, ← EReal.coe_add, ← EReal.coe_mul, ← coe_sum]
  congr 1
  rw [← Finset.sum_add_distrib]
  exact Finset.sum_congr rfl fun k _ => by ring

/-- Inside a finite sum, a product distributes over a sum of three finite terms. -/
theorem sum_mul_add3 {K : ℕ} (x a b c : Fin K → EReal) (hx : AllFin x) (ha : AllFin a) (hb : AllFin b)
    (hc : AllFin c) :
    ∑ k, x k * ((a k + b k) + c k) = ((∑ k, x k * a k) + ∑ k, x k * b k) + ∑ k, x k * c k := by
  obtain ⟨xr, hxr⟩ := hx.exists_real
  obtain ⟨ar, har⟩ := ha.exists_real
  obtain ⟨br, hbr⟩ := hb.exists_real
  obtain ⟨cr, hcr⟩ := hc.exists_real
  simp only [hxr, har, hbr, hcr, ← EReal.coe_add, ← EReal.coe_mul, ← coe_sum]
  congr 1
  rw [← Finset.sum_add_distrib, ← Finset.sum_add_distrib]
  exact Finset.sum_congr rfl fun k _ => by ring

/-- The same distributive law over any finite index type. -/
theorem sum_mul_add3' {ι : Type*} [Fintype ι] (x a b c : ι → EReal) (hx : AllFin x) (ha : AllFin a)
    (hb : AllFin b) (hc : AllFin c) :
    ∑ k, x k * ((a k + b k) + c k) = ((∑ k, x k * a k) + ∑ k, x k * b k) + ∑ k, x k * c k := by
  obtain ⟨xr, hxr⟩ := hx.exists_real
  obtain ⟨ar, har⟩ := ha.exists_real
  obtain ⟨br, hbr⟩ := hb.exists_real
  obtain ⟨cr, hcr⟩ := hc.exists_real
  simp only [hxr, har, hbr, hcr, ← EReal.coe_add, ← EReal.coe_mul, ← coe_sum]
  congr 1
  rw [← Finset.sum_add_distrib, ← Finset.sum_add_distrib]
  exact Finset.sum_congr rfl fun k _ => by ring

/-- The two-term law over any finite index type. -/
theorem sum_mul_add2' {ι : Type*} [Fintype ι] (x a b : ι → EReal) (hx : AllFin x) (ha : AllFin a)
    (hb : AllFin b) :
    ∑ k, x k * (a k + b k) = (∑ k, x k * a k) + ∑ k, x k * b k := by
  obtain ⟨xr, hxr⟩ := hx.exists_real
  obtain ⟨ar, har⟩ := ha.exists_real
  obtain ⟨br, hbr⟩ := hb.exists_real
  simp only [hxr, har, hbr, ← EReal.coe_add, ← EReal.coe_mul, ← coe_sum]
  congr 1
  rw [← Finset.sum_add_distrib]
  exact Finset.sum_congr rfl fun k _ => by ring

/-! ### The float literals -/

/-- The word of `+0.0` denotes zero. -/
theorem ofBits_zero : Ideal.ofBits .f32 0x00000000#32 = 0 := Ideal.ofBits_zero_f32

/-- The word of `1.0` denotes one. -/
theorem ofBits_one : Ideal.ofBits .f32 0x3F800000#32 = 1 := by
  simp [Ideal.ofBits, Ideal.ieee, -EReal.coe_mul]; norm_num

/-- The word of `64.0` denotes the real number sixty-four. -/
theorem ofBits_64 : Ideal.ofBits .f32 0x42800000#32 = ((64 : ℝ) : EReal) := by
  simp [Ideal.ofBits, Ideal.ieee, -EReal.coe_mul]; norm_num

/-- The word nearest `1e-5` denotes the dyadic rational `10995116 / 2^40`. -/
theorem ofBits_eps : Ideal.ofBits .f32 0x3727C5AC#32 = ((10995116 / 2 ^ 40 : ℝ) : EReal) := by
  simp [Ideal.ofBits, Ideal.ieee, -EReal.coe_mul]; norm_num

/-- Zero's word denotes a finite value. -/
theorem isFin_ofBits_zero : IsFin (Ideal.ofBits .f32 0x00000000#32) := ofBits_zero ▸ isFin_zero

/-- One's word denotes a finite value. -/
theorem isFin_ofBits_one : IsFin (Ideal.ofBits .f32 0x3F800000#32) := ofBits_one ▸ isFin_one

/-- Sixty-four's word denotes a finite value. -/
theorem isFin_ofBits_64 : IsFin (Ideal.ofBits .f32 0x42800000#32) := ofBits_64 ▸ isFin_coe _

/-- The small positive constant's word denotes a finite value. -/
theorem isFin_ofBits_eps : IsFin (Ideal.ofBits .f32 0x3727C5AC#32) := ofBits_eps ▸ isFin_coe _

/-- Sixty-four is not zero. -/
theorem ofBits_64_ne_zero : Ideal.ofBits .f32 0x42800000#32 ≠ 0 := by
  rw [ofBits_64]; exact_mod_cast (by norm_num : (64 : ℝ) ≠ 0)

/-- Sixty-four is positive. -/
theorem ofBits_64_pos : 0 < Ideal.ofBits .f32 0x42800000#32 := by
  rw [ofBits_64]; exact_mod_cast (by norm_num : (0 : ℝ) < 64)

/-- One is not zero. -/
theorem ofBits_one_ne_zero : Ideal.ofBits .f32 0x3F800000#32 ≠ 0 := by
  rw [ofBits_one]; exact one_ne_zero

/-- The small constant is positive. -/
theorem ofBits_eps_pos : 0 < Ideal.ofBits .f32 0x3727C5AC#32 := by
  rw [ofBits_eps]; exact_mod_cast (by positivity : (0 : ℝ) < 10995116 / 2 ^ 40)

/-! ### Quotient and reciprocal square root -/

/-- The quotient of a real by a nonzero real, as extended reals, is the real quotient. -/
theorem div_coe_coe (r s : ℝ) (hs : s ≠ 0) : Ideal.div (r : EReal) (s : EReal) = ((r / s : ℝ) : EReal) := by
  rw [Ideal.div, if_neg (by exact_mod_cast hs), ← EReal.coe_inv, ← EReal.coe_mul, div_eq_mul_inv]

/-- The quotient of a finite value by a finite nonzero value is finite. -/
theorem IsFin.div {x y : EReal} (hx : IsFin x) (hy : IsFin y) (hy0 : y ≠ 0) : IsFin (Ideal.div x y) := by
  obtain ⟨r, rfl⟩ := hx; obtain ⟨s, rfl⟩ := hy
  have hs : s ≠ 0 := by exact_mod_cast hy0
  exact ⟨r / s, div_coe_coe r s hs⟩

/-- The reciprocal square root of a positive real is the real `1 / √r`. -/
theorem rsqrt_coe_pos (r : ℝ) (hr : 0 < r) : Ideal.rsqrt (r : EReal) = (((Real.sqrt r)⁻¹ : ℝ) : EReal) := by
  rw [Ideal.rsqrt_coe, if_neg (not_lt.mpr hr.le), if_neg hr.ne']

/-- The reciprocal square root of a finite positive value is finite. -/
theorem IsFin.rsqrt {x : EReal} (hx : IsFin x) (hpos : 0 < x) : IsFin (Ideal.rsqrt x) := by
  obtain ⟨r, rfl⟩ := hx
  have hr : 0 < r := by exact_mod_cast hpos
  exact ⟨_, rsqrt_coe_pos r hr⟩

/-- The reciprocal square root of a finite positive value is positive. -/
theorem rsqrt_pos {x : EReal} (hx : IsFin x) (hpos : 0 < x) : 0 < Ideal.rsqrt x := by
  obtain ⟨r, rfl⟩ := hx
  have hr : 0 < r := by exact_mod_cast hpos
  rw [rsqrt_coe_pos r hr]
  exact_mod_cast inv_pos.mpr (Real.sqrt_pos.mpr hr)

/-- A finite value times itself is not negative. -/
theorem mul_self_nonneg' {x : EReal} (hx : IsFin x) : 0 ≤ x * x := by
  obtain ⟨r, rfl⟩ := hx
  rw [← EReal.coe_mul]; exact_mod_cast mul_self_nonneg r

/-- A finite sum of values that are not negative is not negative. -/
theorem sum_nonneg' {ι : Type*} (s : Finset ι) (f : ι → EReal) (h : ∀ i ∈ s, 0 ≤ f i) : 0 ≤ ∑ i ∈ s, f i :=
  Finset.sum_nonneg h

/-- A sum of squared deviations of finite values from a finite centre is not negative. -/
theorem sum_sq_nonneg {ι : Type*} (s : Finset ι) (h : ι → EReal) (μ : EReal) (hh : ∀ j ∈ s, IsFin (h j))
    (hμ : IsFin μ) : 0 ≤ ∑ j ∈ s, (h j - μ) * (h j - μ) :=
  Finset.sum_nonneg fun j hj => mul_self_nonneg' ((hh j hj).sub hμ)

/-- The quotient of a finite value that is not negative by a finite positive value is not negative. -/
theorem div_nonneg' {x y : EReal} (hx : IsFin x) (hx0 : 0 ≤ x) (hy : IsFin y) (hy0 : 0 < y) :
    0 ≤ Ideal.div x y := by
  obtain ⟨r, rfl⟩ := hx; obtain ⟨s, rfl⟩ := hy
  have hr : 0 ≤ r := by exact_mod_cast hx0
  have hs : 0 < s := by exact_mod_cast hy0
  rw [div_coe_coe r s hs.ne']
  exact_mod_cast div_nonneg hr hs.le

/-- A value that is not negative plus a positive value is positive. -/
theorem add_pos' {a b : EReal} (ha : 0 ≤ a) (hb : 0 < b) : 0 < a + b :=
  lt_of_lt_of_le hb (le_add_of_nonneg_left ha)

/-- The mean of squared deviations over sixty-four, plus the small constant, is positive (and finite). -/
theorem var_add_eps_pos {ι : Type*} (s : Finset ι) (h : ι → EReal) (μ : EReal) (hh : ∀ j ∈ s, IsFin (h j))
    (hμ : IsFin μ) :
    0 < Ideal.div (∑ j ∈ s, (h j - μ) * (h j - μ)) (Ideal.ofBits .f32 0x42800000#32)
        + Ideal.ofBits .f32 0x3727C5AC#32 :=
  add_pos' (div_nonneg' (isFin_sum s _ fun j hj => ((hh j hj).sub hμ).mul ((hh j hj).sub hμ))
    (sum_sq_nonneg s h μ hh hμ) isFin_ofBits_64 ofBits_64_pos) ofBits_eps_pos

/-- … and it is finite. -/
theorem var_add_eps_fin {ι : Type*} (s : Finset ι) (h : ι → EReal) (μ : EReal) (hh : ∀ j ∈ s, IsFin (h j))
    (hμ : IsFin μ) :
    IsFin (Ideal.div (∑ j ∈ s, (h j - μ) * (h j - μ)) (Ideal.ofBits .f32 0x42800000#32)
        + Ideal.ofBits .f32 0x3727C5AC#32) :=
  ((isFin_sum s _ fun j hj => ((hh j hj).sub hμ).mul ((hh j hj).sub hμ)).div isFin_ofBits_64
    ofBits_64_ne_zero).add isFin_ofBits_eps

/-! ### Array operations keep finiteness -/

section Arrays
variable {s t : Shape} {φ : FTy}

/-- The entrywise sum of two finite arrays is finite. -/
theorem allFin_addf {x y : FVec Ideal s φ} (hx : AllFin x) (hy : AllFin y) : AllFin (addf x y) :=
  fun i => (hx i).add (hy i)

/-- The entrywise difference of two finite arrays is finite. -/
theorem allFin_subf {x y : FVec Ideal s φ} (hx : AllFin x) (hy : AllFin y) : AllFin (subf x y) :=
  fun i => (hx i).sub (hy i)

/-- The entrywise product of two finite arrays is finite. -/
theorem allFin_mulf {x y : FVec Ideal s φ} (hx : AllFin x) (hy : AllFin y) : AllFin (mulf x y) :=
  fun i => (hx i).mul (hy i)

/-- The entrywise maximum of two finite arrays is finite. -/
theorem allFin_maximumf {x y : FVec Ideal s φ} (hx : AllFin x) (hy : AllFin y) : AllFin (maximumf x y) :=
  fun i => (hx i).max (hy i)

/-- The entrywise minimum of two finite arrays is finite. -/
theorem allFin_minimumf {x y : FVec Ideal s φ} (hx : AllFin x) (hy : AllFin y) : AllFin (minimumf x y) :=
  fun i => (hx i).min (hy i)

/-- The entrywise negation of a finite array is finite. -/
theorem allFin_negf {x : FVec Ideal s φ} (hx : AllFin x) : AllFin (negf x) :=
  fun i => (hx i).neg

/-- The entrywise quotient of a finite array by a finite, nowhere zero array is finite. -/
theorem allFin_divf {x y : FVec Ideal s φ} (hx : AllFin x) (hy : AllFin y) (hy0 : ∀ i, y i ≠ 0) :
    AllFin (divf x y) :=
  fun i => (hx i).div (hy i) (hy0 i)

/-- The same for the quotient as the reference program writes it. -/
theorem allFin_hostDivf {x y : FVec Ideal s φ} (hx : AllFin x) (hy : AllFin y) (hy0 : ∀ i, y i ≠ 0) :
    AllFin (Host.divf x y) :=
  fun i => (hx i).div (hy i) (hy0 i)

/-- The entrywise reciprocal square root of a finite, everywhere positive array is finite. -/
theorem allFin_rsqrt {x : FVec Ideal s φ} (hx : AllFin x) (hpos : ∀ i, 0 < x i) : AllFin (rsqrt x) :=
  fun i => (hx i).rsqrt (hpos i)

/-- The same for the reciprocal square root as the reference program writes it. -/
theorem allFin_hostRsqrt {x : FVec Ideal s φ} (hx : AllFin x) (hpos : ∀ i, 0 < x i) : AllFin (Host.rsqrt x) :=
  fun i => (hx i).rsqrt (hpos i)

/-- A change of format is the identity on extended reals, so it keeps finiteness. -/
theorem allFin_truncf {x : FVec Ideal s φ} (ψ : FTy) (h : ψ.bits < φ.bits) (hx : AllFin x) :
    AllFin (truncf ψ x h) :=
  fun i => hx i

/-- A change of format is the identity on extended reals, so it keeps finiteness. -/
theorem allFin_extf {x : FVec Ideal s φ} (ψ : FTy) (h : φ.bits < ψ.bits) (hx : AllFin x) :
    AllFin (extf ψ x h) :=
  fun i => hx i

/-- The array that repeats one finite value is finite. -/
theorem allFin_broadcast {x : EReal} (hx : IsFin x) : AllFin (broadcast t x) :=
  fun _ => hx

/-- Every entry of a broadcast array is an entry of its source. -/
theorem allFin_broadcastTo {x : s.Idx → EReal} (h : s.Broadcasts t) (hx : AllFin x) :
    AllFin (broadcastTo t x h) :=
  fun _ => hx _

/-- Every entry of a broadcast array is an entry of its source. -/
theorem allFin_broadcastInDim {x : s.Idx → EReal} (dims : Fin s.rank → Fin t.rank)
    (h : s.BroadcastsInDim t dims) (hx : AllFin x) : AllFin (broadcastInDim t dims h x) :=
  fun _ => hx _

/-- Every entry of a reshaped array is an entry of its source. -/
theorem allFin_shapeCast {x : s.Idx → EReal} (h : s.ShapeCasts t) (hx : AllFin x) :
    AllFin (shapeCast t x h) :=
  fun _ => hx _

/-- Every entry of a slice is an entry of its source. -/
theorem allFin_slice {x : s.Idx → EReal} (off : Fin s.rank → Nat) (h : s.Slices off t) (hx : AllFin x) :
    AllFin (extractStridedSlice t off x h) :=
  fun _ => hx _

/-- Every entry of a transposed array is an entry of its source. -/
theorem allFin_transpose {x : s.Idx → EReal} (perm : List (Fin s.rank)) (h : s.Transposes perm t)
    (hx : AllFin x) : AllFin (transpose t perm x h) :=
  fun _ => hx _

/-- The constant array of a word that denotes a finite value is finite. -/
theorem allFin_constant {b : BitVec φ.bits} (hb : IsFin (Ideal.ofBits φ b)) :
    AllFin (constant (F := Ideal) s φ b) :=
  fun _ => hb

/-- An entrywise choice between two finite arrays is finite. -/
theorem allFin_select {c : IVec s 1} {a b : s.Idx → EReal} (ha : AllFin a) (hb : AllFin b) :
    AllFin (select c a b) := by
  intro i
  show IsFin (Scalar.select (c i) (a i) (b i))
  unfold Scalar.select
  split
  · exact ha i
  · exact hb i

/-- Every entry of a gathered array is an entry of its source, whatever the indices. -/
theorem allFin_gather {si : Shape} {w : Nat} (d : GatherDims s si t) {x : s.Idx → EReal} (idx : IVec si w)
    (hx : AllFin x) : AllFin (Host.gather d x idx) :=
  fun _ => hx _

/-- An accumulating scatter gives, at each place, the operand's entry plus a finite sum of update
    entries: finite when the operand and the updates are. -/
theorem allFin_scatterAdd {si u : Shape} {w : Nat} (d : ScatterDims s si u) {x : FVec Ideal s φ}
    (idx : IVec si w) {upd : FVec Ideal u φ} (hx : AllFin x) (hu : AllFin upd) :
    AllFin (Host.scatterAdd d x idx upd) :=
  fun i => (hx i).add (isFin_sum _ _ fun j _ => hu j)

/-- A matrix product into a finite accumulator, of finite operands, is finite: each entry is the
    accumulator's plus a finite sum of products. -/
theorem allFin_matmul {sl sr so : Shape} {φ₁ φ₂ : FTy} (d : DotDims sl sr so) (prec : Option ContractPrecision)
    {lhs : FVec Ideal sl φ₁} {rhs : FVec Ideal sr φ₂} {acc : FVec Ideal so .f32} (hl : AllFin lhs)
    (hr : AllFin rhs) (ha : AllFin acc) : AllFin (matmul d prec lhs rhs acc) :=
  fun j => (ha j).add (isFin_sum _ _ fun k _ => (hl _).mul (hr _))

/-- The reference's matrix product of finite operands is finite: each entry is a finite sum of products. -/
theorem allFin_dotGeneral {sl sr so : Shape} {φ₁ φ₂ : FTy} (d : DotDims sl sr so)
    (prec : Option ContractPrecision) {lhs : FVec Ideal sl φ₁} {rhs : FVec Ideal sr φ₂} (hl : AllFin lhs)
    (hr : AllFin rhs) : AllFin (Host.dotGeneral d prec lhs rhs) :=
  fun j => isFin_zero.add (isFin_sum _ _ fun k _ => (hl _).mul (hr _))

/-- The reference's sum over axes, from a finite initial value, of a finite array is finite. -/
theorem allFin_reduceAdd {axes : List (Fin s.rank)} {u : Shape} {x : FVec Ideal s φ} {init : u.Idx → Ideal φ}
    (h : s.ReducesTo axes t) (hu : 0 < u.numel) (hx : AllFin x) (hi : AllFin init) :
    AllFin (Host.reduceAdd x init h hu) :=
  fun j => (hi _).add (isFin_sum _ _ fun i _ => hx i)

/-- The kernel's sum over axes of a finite array is finite. -/
theorem allFin_multiReduction_add {axes : List (Fin s.rank)} {x : FVec Ideal s φ} (acc : BitVec φ.bits)
    (h : s.Reduces axes t) (hφ : FKind.Formats φ) (hacc : acc = FKind.add.neutral φ hφ) (hx : AllFin x) :
    AllFin (multiReduction .add axes t x acc h hφ hacc) := by
  intro j
  show IsFin (Ideal.reduceAdd h x j)
  unfold Ideal.reduceAdd
  exact isFin_sum _ _ fun i _ => hx i

/-- Every entry of a concatenation is an entry of one of its parts. -/
theorem allFin_concatenate (a : Fin t.rank) (xs : List ((s : Shape) × (s.Idx → EReal)))
    (h : Shape.Concatenates (xs.map (·.1)) t a) (hxs : ∀ p ∈ xs, AllFin p.2) :
    AllFin (concatenate t a xs h) := by
  intro j
  unfold concatenate
  exact hxs _ (List.getElem_mem _) _

end Arrays

end Cert.Fin

end
-- ==== Proof.Finite.lean ====
/-
  The precondition says every entry of both inputs has absolute value below +∞: every entry is a real number.
-/
import proofs.«410151_j61942018343003_3_alg».proof.Pre_finite_inputs
import proofs.«410151_j61942018343003_3_alg».proof.Proof.LibFinite
import Idealize.ShloMosaic.Lib.ReduceAll
import Idealize.ShloMosaic.Lib.ValueIdx

noncomputable section

open Idealize.ShloMosaic Idealize.ShloMosaic.ValueIdx

namespace Cert.Butterfly

open Cert.Fin

/-- The rank-zero shape has exactly one index. -/
instance subsingleton_scalarIdx : Subsingleton Cert.Pre_finite_inputs.S_.Idx :=
  ⟨fun _ _ => funext fun d => d.elim0⟩

/-- The word `0x7F800000` denotes +∞. -/
theorem ofBits_inf : Ideal.ofBits .f32 0x7F800000#32 = ⊤ := by
  simp [Ideal.ofBits, Ideal.ieee]

/-- An extended real whose absolute value `max x (-x)` lies strictly below +∞ is a real number: for either infinity
    the absolute value is +∞ itself. -/
theorem isFin_of_abs_lt_inf (x : EReal)
    (h : Ideal.cmp .olt (max x (-x)) (Ideal.ofBits .f32 0x7F800000#32) = 1#1) : IsFin x := by
  rw [ofBits_inf] at h
  induction x using EReal.rec with
  | bot => exact absurd h (by simp [Ideal.cmp])
  | top => exact absurd h (by simp [Ideal.cmp])
  | coe r => exact ⟨r, rfl⟩

/-- FINITE INPUTS ARE REAL: if the printed precondition is all ones on the two input arrays, both are arrays of real
    numbers. -/
theorem real_inputs [hP : Cert.Pre_finite_inputs.Facts] (x : FVec Ideal ⟨2, ![16384, 1024]⟩ .f32) (ang : FVec Ideal ⟨2, ![10, 512]⟩ .f32)
    (h : Cert.Pre_finite_inputs.fn (F := Ideal) x ang = fun _ => 1#1) :
    ∃ (xr : Fin 16384 → Fin 1024 → ℝ) (θr : Fin 10 → Fin 512 → ℝ),
      (∀ r j, x (ix2 r j) = ((xr r j : ℝ) : EReal)) ∧ (∀ a b, ang (ix2 a b) = ((θr a b : ℝ) : EReal)) := by
  -- the one bit of the precondition, read at the only index of a scalar
  have h0 := congrFun h ValueIdx.ix0
  dsimp only [Cert.Pre_finite_inputs.fn] at h0
  -- it is the conjunction of the two reductions
  obtain ⟨h1, h2⟩ := IntOp.andi_eq_one.1 h0
  -- a reduction by "and" over all axes that gives 1 met 1 at every entry
  have hx : AllFin x := fun i =>
    isFin_of_abs_lt_inf (x i) (Host.reduce_andi_all _ _ _ _ _ h1 i)
  have hθ : AllFin ang := fun i =>
    isFin_of_abs_lt_inf (ang i) (Host.reduce_andi_all _ _ _ _ _ h2 i)
  obtain ⟨xr, hxr⟩ := hx.exists_real
  obtain ⟨θr, hθr⟩ := hθ.exists_real
  exact ⟨fun r j => xr (ix2 r j), fun a b => θr (ix2 a b), fun r j => hxr (ix2 r j), fun a b => hθr (ix2 a b)⟩

end Cert.Butterfly

end
-- ==== Proof.Bridge.lean ====
/-
  The kernel's result is the reference's.

  On real inputs the host's table W is real, and by the ten stages' linearity its row k is the chain's image of the
  k-th unit row: W(k, j) = T(e_k)(j). The region computes x·w_hi + x·w_lo + (x − x)·w_hi with w_hi = W and
  w_lo = W − W; on real numbers x − x = 0 and W − W = 0, so two of the three products vanish and entry (r, j) of the
  result is ∑ k, x(r, k)·T(e_k)(j), which is T(x(r, ·))(j): the reference's entry.
-/
import proofs.«410151_j61942018343003_3_alg».proof.Proof.KerHost
import proofs.«410151_j61942018343003_3_alg».proof.Proof.KerValue
import proofs.«410151_j61942018343003_3_alg».proof.Proof.Finite

noncomputable section

open scoped BigOperators

namespace Cert.KernelIdeal.Bridge

open Cert.KernelIdeal Cert.KernelIdeal.Gen Idealize.ShloMosaic Idealize.ShloMosaic.TcCoe Idealize.SL.Sem
open Idealize.ShloMosaic.ValueIdx Cert.Butterfly Cert.KernelIdeal.Arr

variable (m : (ℓ : Loc nD τ sig) → Buf (Elt Ideal) ℓ)

/-- Row k of the host's table, on a real angle table, is the ten real steps applied to the k-th unit row. -/
theorem wtab_real (c : Dev nD) (θr : Fin 10 → Fin 512 → ℝ)
    (hθ : ∀ a b, angarr m c (ix2 a b) = ((θr a b : ℝ) : EReal)) (k j : Fin 1024) :
    wtab m c (ix2 k j) = ((runSteps (realSteps θr) (Pi.single k (1 : ℝ)) j : ℝ) : EReal) := by
  rw [Cert.KernelIdeal.Host.V_table m c]
  exact chain_real Cert.KernelIdeal.Host.kerEv (eye m c) (angarr m c) (fun k => Pi.single k (1 : ℝ)) θr
    (Cert.KernelIdeal.Host.V_eye m c) hθ k j

/-- THE RESULT ARRAY IS THE CHAIN OF x: on finite inputs, for the shape relations of any chain on 16384 rows. -/
theorem outarr_eq_chain [hP : Cert.Pre_finite_inputs.Facts] (c : Dev nD) (ev : ChainEv 16384)
    (hpre : Cert.Pre_finite_inputs.fn (F := Ideal) (m ((c.tc : Thread nD τ).loc main_arg0)) (m ((c.tc : Thread nD τ).loc main_arg1))
      = fun _ => 1#1) :
    outarr m c = chain (F := Ideal) ev (m ((c.tc : Thread nD τ).loc main_arg0)) (m ((c.tc : Thread nD τ).loc main_arg1)) := by
  obtain ⟨xr, θr, hx, hθ⟩ := real_inputs _ _ hpre
  funext i
  obtain ⟨r, j, rfl⟩ : ∃ (r : Fin 16384) (j : Fin 1024), i = ix2 r j := ⟨i 0, i 1, eq_ix2 i⟩
  rw [chain_real ev _ _ xr θr hx hθ r j, Cert.KernelIdeal.Closed.arr_apply m c r j]
  have hθ' : ∀ a b, angarr m c (ix2 a b) = ((θr a b : ℝ) : EReal) := fun a b => by
    rw [angarr_eq]; exact hθ a b
  have hxr : ∀ k, xarr m c (ix2 r k) = ((xr r k : ℝ) : EReal) := fun k => by
    rw [xarr_eq]; exact hx r k
  -- the three products, summand by summand
  have e1 : ∀ k : Fin 1024, xarr m c (ix2 r k) * whi m c (ix2 k j)
      = ((xr r k * runSteps (realSteps θr) (Pi.single k (1 : ℝ)) j : ℝ) : EReal) := fun k => by
    rw [hxr k, Cert.KernelIdeal.Host.V_hi m c, wtab_real m c θr hθ' k j, ← EReal.coe_mul]
  have e2 : ∀ k : Fin 1024, xarr m c (ix2 r k) * wlo m c (ix2 k j) = 0 := fun k => by
    rw [Cert.KernelIdeal.Host.V_lo m c, wtab_real m c θr hθ' k j, ← EReal.coe_sub, sub_self, EReal.coe_zero, mul_zero]
  have e3 : ∀ k : Fin 1024, (xarr m c (ix2 r k) - xarr m c (ix2 r k)) * whi m c (ix2 k j) = 0 := fun k => by
    rw [hxr k, ← EReal.coe_sub, sub_self, EReal.coe_zero, zero_mul]
  rw [Finset.sum_congr rfl (fun k _ => e1 k), Finset.sum_congr rfl (fun k _ => e2 k), Finset.sum_congr rfl (fun k _ => e3 k),
    Finset.sum_const_zero, add_zero, add_zero, ← Cert.Fin.coe_sum, runSteps_eq_matrix]

end Cert.KernelIdeal.Bridge

end
-- ==== Proof.RefChain.lean ====
/-
  The reference's run is the ten butterfly stages applied to x.

  The reference reshapes each row into groups, rotates the pairs of every group by that stage's angles and flattens
  the row again, ten times. Its generated run names each stage's grouped input, halves, angles, cosines and sines; this
  file folds those names, stage by stage, into the chain of stage terms on 16384 rows.
-/
import proofs.«410151_j61942018343003_3_alg».proof.Proof.Gen.ReferenceIdeal.Run
import proofs.«410151_j61942018343003_3_alg».proof.Proof.Chain

noncomputable section

namespace Cert.ReferenceIdeal.Chain

open Cert.ReferenceIdeal Cert.ReferenceIdeal.Gen Idealize.ShloMosaic Idealize.ShloMosaic.TcCoe Idealize.SL.Sem Idealize.ShloMosaic.StableHlo
open Cert.Butterfly

/-- The ten stages' shape relations on 16384 rows. Stage s has 512 / 2^s groups of 2^(s+1) entries; each relation is one
    of the shape facts of the reference program at those sizes. -/
theorem refEv : ChainEv 16384 where
  s0 := ⟨shapeCasts_S16384x1024_S16384x512x2, slices_S16384x512x2_S16384x512x1_0_0_0, slices_S16384x512x2_S16384x512x1_0_0_1,
     slices_S10x512_S1x512_0_0, shapeCasts_S1x512_S512, shapeCasts_S512_S1x512x1, bcast_S1x512x1_S16384x512x1_0_1_2,
     concatenates_S16384x512x1_S16384x512x1_S16384x512x2_d2, shapeCasts_S16384x512x2_S16384x1024⟩
  s1 := ⟨shapeCasts_S16384x1024_S16384x256x4, slices_S16384x256x4_S16384x256x2_0_0_0, slices_S16384x256x4_S16384x256x2_0_0_2,
     slices_S10x512_S1x512_1_0, shapeCasts_S1x512_S512, shapeCasts_S512_S1x256x2, bcast_S1x256x2_S16384x256x2_0_1_2,
     concatenates_S16384x256x2_S16384x256x2_S16384x256x4_d2, shapeCasts_S16384x256x4_S16384x1024⟩
  s2 := ⟨shapeCasts_S16384x1024_S16384x128x8, slices_S16384x128x8_S16384x128x4_0_0_0, slices_S16384x128x8_S16384x128x4_0_0_4,
     slices_S10x512_S1x512_2_0, shapeCasts_S1x512_S512, shapeCasts_S512_S1x128x4, bcast_S1x128x4_S16384x128x4_0_1_2,
     concatenates_S16384x128x4_S16384x128x4_S16384x128x8_d2, shapeCasts_S16384x128x8_S16384x1024⟩
  s3 := ⟨shapeCasts_S16384x1024_S16384x64x16, slices_S16384x64x16_S16384x64x8_0_0_0, slices_S16384x64x16_S16384x64x8_0_0_8,
     slices_S10x512_S1x512_3_0, shapeCasts_S1x512_S512, shapeCasts_S512_S1x64x8, bcast_S1x64x8_S16384x64x8_0_1_2,
     concatenates_S16384x64x8_S16384x64x8_S16384x64x16_d2, shapeCasts_S16384x64x16_S16384x1024⟩
  s4 := ⟨shapeCasts_S16384x1024_S16384x32x32, slices_S16384x32x32_S16384x32x16_0_0_0, slices_S16384x32x32_S16384x32x16_0_0_16,
     slices_S10x512_S1x512_4_0, shapeCasts_S1x512_S512, shapeCasts_S512_S1x32x16, bcast_S1x32x16_S16384x32x16_0_1_2,
     concatenates_S16384x32x16_S16384x32x16_S16384x32x32_d2, shapeCasts_S16384x32x32_S16384x1024⟩
  s5 := ⟨shapeCasts_S16384x1024_S16384x16x64, slices_S16384x16x64_S16384x16x32_0_0_0, slices_S16384x16x64_S16384x16x32_0_0_32,
     slices_S10x512_S1x512_5_0, shapeCasts_S1x512_S512, shapeCasts_S512_S1x16x32, bcast_S1x16x32_S16384x16x32_0_1_2,
     concatenates_S16384x16x32_S16384x16x32_S16384x16x64_d2, shapeCasts_S16384x16x64_S16384x1024⟩
  s6 := ⟨shapeCasts_S16384x1024_S16384x8x128, slices_S16384x8x128_S16384x8x64_0_0_0, slices_S16384x8x128_S16384x8x64_0_0_64,
     slices_S10x512_S1x512_6_0, shapeCasts_S1x512_S512, shapeCasts_S512_S1x8x64, bcast_S1x8x64_S16384x8x64_0_1_2,
     concatenates_S16384x8x64_S16384x8x64_S16384x8x128_d2, shapeCasts_S16384x8x128_S16384x1024⟩
  s7 := ⟨shapeCasts_S16384x1024_S16384x4x256, slices_S16384x4x256_S16384x4x128_0_0_0, slices_S16384x4x256_S16384x4x128_0_0_128,
     slices_S10x512_S1x512_7_0, shapeCasts_S1x512_S512, shapeCasts_S512_S1x4x128, bcast_S1x4x128_S16384x4x128_0_1_2,
     concatenates_S16384x4x128_S16384x4x128_S16384x4x256_d2, shapeCasts_S16384x4x256_S16384x1024⟩
  s8 := ⟨shapeCasts_S16384x1024_S16384x2x512, slices_S16384x2x512_S16384x2x256_0_0_0, slices_S16384x2x512_S16384x2x256_0_0_256,
     slices_S10x512_S1x512_8_0, shapeCasts_S1x512_S512, shapeCasts_S512_S1x2x256, bcast_S1x2x256_S16384x2x256_0_1_2,
     concatenates_S16384x2x256_S16384x2x256_S16384x2x512_d2, shapeCasts_S16384x2x512_S16384x1024⟩
  s9 := ⟨shapeCasts_S16384x1024_S16384x1x1024, slices_S16384x1x1024_S16384x1x512_0_0_0, slices_S16384x1x1024_S16384x1x512_0_0_512,
     slices_S10x512_S1x512_9_0, shapeCasts_S1x512_S512, shapeCasts_S512_S1x1x512, bcast_S1x1x512_S16384x1x512_0_1_2,
     concatenates_S16384x1x512_S16384x1x512_S16384x1x1024_d2, shapeCasts_S16384x1x1024_S16384x1024⟩

/-! ## The array after each stage

  `arr k` is the launched x after the first k stages; `tbl` is the launched angle table. Each is a name, so that a
  stage's four uses of its input stay four uses of one name. -/

section Fold
variable {F : FTy → Type} [FloatOps F]
open Cert.ReferenceIdeal.Value

/-- The angle table among the launch contents. -/
def tbl (V0 : Valuation τ sig (Elt F)) : FVec F ⟨2, ![10, 512]⟩ .f32 := V0 (Proc.devRef .tc main_arg1)

/-- x among the launch contents: the array before any stage. -/
def arr0 (V0 : Valuation τ sig (Elt F)) : FVec F ⟨2, ![16384, 1024]⟩ .f32 := V0 (Proc.devRef .tc main_arg0)

/-- The array after stage 0. -/
def arr1 (V0 : Valuation τ sig (Elt F)) : FVec F ⟨2, ![16384, 1024]⟩ .f32 := stage refEv.s0 (arr0 V0) (tbl V0)

/-- The array after stages 0 … 1. -/
def arr2 (V0 : Valuation τ sig (Elt F)) : FVec F ⟨2, ![16384, 1024]⟩ .f32 := stage refEv.s1 (arr1 V0) (tbl V0)

/-- The array after stages 0 … 2. -/
def arr3 (V0 : Valuation τ sig (Elt F)) : FVec F ⟨2, ![16384, 1024]⟩ .f32 := stage refEv.s2 (arr2 V0) (tbl V0)

/-- The array after stages 0 … 3. -/
def arr4 (V0 : Valuation τ sig (Elt F)) : FVec F ⟨2, ![16384, 1024]⟩ .f32 := stage refEv.s3 (arr3 V0) (tbl V0)

/-- The array after stages 0 … 4. -/
def arr5 (V0 : Valuation τ sig (Elt F)) : FVec F ⟨2, ![16384, 1024]⟩ .f32 := stage refEv.s4 (arr4 V0) (tbl V0)

/-- The array after stages 0 … 5. -/
def arr6 (V0 : Valuation τ sig (Elt F)) : FVec F ⟨2, ![16384, 1024]⟩ .f32 := stage refEv.s5 (arr5 V0) (tbl V0)

/-- The array after stages 0 … 6. -/
def arr7 (V0 : Valuation τ sig (Elt F)) : FVec F ⟨2, ![16384, 1024]⟩ .f32 := stage refEv.s6 (arr6 V0) (tbl V0)

/-- The array after stages 0 … 7. -/
def arr8 (V0 : Valuation τ sig (Elt F)) : FVec F ⟨2, ![16384, 1024]⟩ .f32 := stage refEv.s7 (arr7 V0) (tbl V0)

/-- The array after stages 0 … 8. -/
def arr9 (V0 : Valuation τ sig (Elt F)) : FVec F ⟨2, ![16384, 1024]⟩ .f32 := stage refEv.s8 (arr8 V0) (tbl V0)

/-- The array after stages 0 … 9. -/
def arr10 (V0 : Valuation τ sig (Elt F)) : FVec F ⟨2, ![16384, 1024]⟩ .f32 := stage refEv.s9 (arr9 V0) (tbl V0)

/-! ## The generated names, stage by stage

  For every stage s the run's name for the grouped input is the groups of `arr s`, and its name for the stage's angles
  is row s of the table, grouped. The grouped input of stage s + 1 is, read once, the rotated groups of stage s
  flattened and cut into the next stage's groups: the stage term applied to `arr s`, then grouped. -/

/-- Stage 0's angles: row 0 of the table, as 512 groups of 1. -/
theorem angles_eq0 (V0 : Valuation τ sig (Elt F)) : res_main_v5 V0 = angles3 refEv.s0 (tbl V0) := rfl

/-- Stage 0's grouped input: x cut into 512 groups of 2. -/
theorem groups_eq0 (V0 : Valuation τ sig (Elt F)) : res_main_v0 V0 = groups refEv.s0 (arr0 V0) := rfl

/-- Stage 1's angles: row 1 of the table, as 256 groups of 2. -/
theorem angles_eq1 (V0 : Valuation τ sig (Elt F)) : res_main_v26 V0 = angles3 refEv.s1 (tbl V0) := rfl

set_option maxRecDepth 8192 in
/-- Stage 1's grouped input: the result of stage 0 cut into 256 groups of 4. -/
theorem groups_eq1 (V0 : Valuation τ sig (Elt F)) : res_main_v21 V0 = groups refEv.s1 (arr1 V0) := by
  unfold res_main_v21 res_main_v1 res_main_v2 res_main_v6 res_main_v7
  rw [groups_eq0, angles_eq0]
  rfl

/-- Stage 2's angles: row 2 of the table, as 128 groups of 4. -/
theorem angles_eq2 (V0 : Valuation τ sig (Elt F)) : res_main_v47 V0 = angles3 refEv.s2 (tbl V0) := rfl

set_option maxRecDepth 8192 in
/-- Stage 2's grouped input: the result of stage 1 cut into 128 groups of 8. -/
theorem groups_eq2 (V0 : Valuation τ sig (Elt F)) : res_main_v42 V0 = groups refEv.s2 (arr2 V0) := by
  unfold res_main_v42 res_main_v22 res_main_v23 res_main_v27 res_main_v28
  rw [groups_eq1, angles_eq1]
  rfl

/-- Stage 3's angles: row 3 of the table, as 64 groups of 8. -/
theorem angles_eq3 (V0 : Valuation τ sig (Elt F)) : res_main_v68 V0 = angles3 refEv.s3 (tbl V0) := rfl

set_option maxRecDepth 8192 in
/-- Stage 3's grouped input: the result of stage 2 cut into 64 groups of 16. -/
theorem groups_eq3 (V0 : Valuation τ sig (Elt F)) : res_main_v63 V0 = groups refEv.s3 (arr3 V0) := by
  unfold res_main_v63 res_main_v43 res_main_v44 res_main_v48 res_main_v49
  rw [groups_eq2, angles_eq2]
  rfl

/-- Stage 4's angles: row 4 of the table, as 32 groups of 16. -/
theorem angles_eq4 (V0 : Valuation τ sig (Elt F)) : res_main_v89 V0 = angles3 refEv.s4 (tbl V0) := rfl

set_option maxRecDepth 8192 in
/-- Stage 4's grouped input: the result of stage 3 cut into 32 groups of 32. -/
theorem groups_eq4 (V0 : Valuation τ sig (Elt F)) : res_main_v84 V0 = groups refEv.s4 (arr4 V0) := by
  unfold res_main_v84 res_main_v64 res_main_v65 res_main_v69 res_main_v70
  rw [groups_eq3, angles_eq3]
  rfl

/-- Stage 5's angles: row 5 of the table, as 16 groups of 32. -/
theorem angles_eq5 (V0 : Valuation τ sig (Elt F)) : res_main_v110 V0 = angles3 refEv.s5 (tbl V0) := rfl

set_option maxRecDepth 8192 in
/-- Stage 5's grouped input: the result of stage 4 cut into 16 groups of 64. -/
theorem groups_eq5 (V0 : Valuation τ sig (Elt F)) : res_main_v105 V0 = groups refEv.s5 (arr5 V0) := by
  unfold res_main_v105 res_main_v85 res_main_v86 res_main_v90 res_main_v91
  rw [groups_eq4, angles_eq4]
  rfl

/-- Stage 6's angles: row 6 of the table, as 8 groups of 64. -/
theorem angles_eq6 (V0 : Valuation τ sig (Elt F)) : res_main_v131 V0 = angles3 refEv.s6 (tbl V0) := rfl

set_option maxRecDepth 8192 in
/-- Stage 6's grouped input: the result of stage 5 cut into 8 groups of 128. -/
theorem groups_eq6 (V0 : Valuation τ sig (Elt F)) : res_main_v126 V0 = groups refEv.s6 (arr6 V0) := by
  unfold res_main_v126 res_main_v106 res_main_v107 res_main_v111 res_main_v112
  rw [groups_eq5, angles_eq5]
  rfl

/-- Stage 7's angles: row 7 of the table, as 4 groups of 128. -/
theorem angles_eq7 (V0 : Valuation τ sig (Elt F)) : res_main_v152 V0 = angles3 refEv.s7 (tbl V0) := rfl

set_option maxRecDepth 8192 in
/-- Stage 7's grouped input: the result of stage 6 cut into 4 groups of 256. -/
theorem groups_eq7 (V0 : Valuation τ sig (Elt F)) : res_main_v147 V0 = groups refEv.s7 (arr7 V0) := by
  unfold res_main_v147 res_main_v127 res_main_v128 res_main_v132 res_main_v133
  rw [groups_eq6, angles_eq6]
  rfl

/-- Stage 8's angles: row 8 of the table, as 2 groups of 256. -/
theorem angles_eq8 (V0 : Valuation τ sig (Elt F)) : res_main_v173 V0 = angles3 refEv.s8 (tbl V0) := rfl

set_option maxRecDepth 8192 in
/-- Stage 8's grouped input: the result of stage 7 cut into 2 groups of 512. -/
theorem groups_eq8 (V0 : Valuation τ sig (Elt F)) : res_main_v168 V0 = groups refEv.s8 (arr8 V0) := by
  unfold res_main_v168 res_main_v148 res_main_v149 res_main_v153 res_main_v154
  rw [groups_eq7, angles_eq7]
  rfl

/-- Stage 9's angles: row 9 of the table, as 1 group of 512. -/
theorem angles_eq9 (V0 : Valuation τ sig (Elt F)) : res_main_v194 V0 = angles3 refEv.s9 (tbl V0) := rfl

set_option maxRecDepth 8192 in
/-- Stage 9's grouped input: the result of stage 8 cut into 1 group of 1024. -/
theorem groups_eq9 (V0 : Valuation τ sig (Elt F)) : res_main_v189 V0 = groups refEv.s9 (arr9 V0) := by
  unfold res_main_v189 res_main_v169 res_main_v170 res_main_v174 res_main_v175
  rw [groups_eq8, angles_eq8]
  rfl

/-- The ten stages one after the other are the chain. -/
theorem arr10_eq (V0 : Valuation τ sig (Elt F)) :
    arr10 V0 = chain refEv (V0 (Proc.devRef .tc main_arg0)) (V0 (Proc.devRef .tc main_arg1)) := rfl

set_option maxRecDepth 8192 in
/-- The run's result term is the last stage applied to the array after nine stages: the chain. -/
theorem result_chain (V0 : Valuation τ sig (Elt F)) :
    val4 V0 (Proc.devRef .tc main_v209) = chain refEv (V0 (Proc.devRef .tc main_arg0)) (V0 (Proc.devRef .tc main_arg1)) := by
  rw [val4_main_v209, ← arr10_eq]
  unfold res_main_v190 res_main_v191 res_main_v195 res_main_v196
  rw [groups_eq9, angles_eq9]
  rfl

end Fold

/-- THE REFERENCE'S RUN: every weakly fair execution terminates with the result at the ten stages applied to the
    launched x and angle table, the arguments unchanged. -/
theorem run_chain (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v209)
        = chain (F := Ideal) refEv (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c).1.trans
        ((Cert.ReferenceIdeal.Value.val4_main_v209 (launchContents m c)).symm.trans (result_chain (launchContents m c))), (h c).2⟩)
    (Cert.ReferenceIdeal.Value.run (F := Ideal) m ρ)

end Cert.ReferenceIdeal.Chain

end
-- ==== Proof.lean ====
/-
  The certificate of a butterfly transform computed as one matrix product.

  The reference applies ten butterfly stages to every row of x: stage s pairs entry j with the entry 2^s positions
  away inside groups of 2^(s+1) and rotates each pair by an angle from row s of the angle table. Every stage is one
  fixed linear map applied to each row, so the whole transform T is linear: T(y) = y · W where row k of W is T(e_k).
  The kernel's host code computes exactly that W, by running the same ten stages on the identity matrix, and splits it
  as w_hi + w_lo (a leading part and a remainder); its one region then computes x·w_hi + x·w_lo + (x − x)·w_hi, sixteen
  blocks of 1024 rows each. On the extended reals a change of float format is the identity, so w_hi = W, w_lo = W − W
  and the last product has the factor x − x; on finite inputs these differences are 0, W is finite (cosines and sines
  of finite angles), and what is left, x · W, is T(x) row by row.

  The three frames: the two kernel programs' are the generated ones; the reference's is its run with the value dropped.
  The idealization's one rewrite (a narrowing followed by the widening back is the identity) is its rule's statement.
-/
import proofs.«410151_j61942018343003_3_alg».proof.Defs
import proofs.«410151_j61942018343003_3_alg».proof.Proof.Gen.Kernel
import proofs.«410151_j61942018343003_3_alg».proof.Proof.Gen.Kernel.Skeleton
import proofs.«410151_j61942018343003_3_alg».proof.Proof.Gen.Kernel.Launch
import proofs.«410151_j61942018343003_3_alg».proof.Proof.Gen.Kernel.Points
import proofs.«410151_j61942018343003_3_alg».proof.Proof.Gen.Kernel.Frame
import proofs.«410151_j61942018343003_3_alg».proof.Proof.Gen.KernelIdeal
import proofs.«410151_j61942018343003_3_alg».proof.Proof.Gen.KernelIdeal.Skeleton
import proofs.«410151_j61942018343003_3_alg».proof.Proof.Gen.KernelIdeal.Launch
import proofs.«410151_j61942018343003_3_alg».proof.Proof.Gen.KernelIdeal.Points
import proofs.«410151_j61942018343003_3_alg».proof.Proof.Gen.KernelIdeal.Frame
import proofs.«410151_j61942018343003_3_alg».proof.Proof.Gen.ReferenceIdeal
import proofs.«410151_j61942018343003_3_alg».proof.Proof.Gen.Pre_finite_inputs
import proofs.«410151_j61942018343003_3_alg».proof.Proof.Gen.KernelIdeal.Value
import proofs.«410151_j61942018343003_3_alg».proof.Proof.Gen.ReferenceIdeal.Run
import proofs.«410151_j61942018343003_3_alg».proof.Proof.Bridge
import proofs.«410151_j61942018343003_3_alg».proof.Proof.RefChain
import Idealize.ShloMosaic.Adequacy
import Idealize.ShloMosaic.Init

noncomputable section

namespace Cert.Proof

open Idealize.ShloMosaic Idealize.SL.Sem Cert.Kernel

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments unchanged: its run with the value dropped. -/
theorem frame_ri : Cert.frame_ReferenceIdeal := fun m ρ _ =>
  (θ_run Cert.ReferenceIdeal.defs _ _).mono (fun _ h c => (h c).2) (Cert.ReferenceIdeal.Chain.run_chain m ρ)

/-- The one rewrite of the idealization: narrowing to the short format and widening back is the identity on the
    extended reals, and the rounding it is on words. -/
theorem preserves : Cert.preserves_Kernel_KernelIdeal :=
  IdealRules.truncf_extf.statement Cert.KernelIdeal.S1024x1024 .f32 .bf16

/-- From memories that agree on x and the angle table, both programs end with the same array: the kernel's result
    array is the chain of ten stages on x (the bridge), which is what the reference's run ends with. -/
theorem algebraic : Cert.algebraic_KernelIdeal_ReferenceIdeal := by
  intro m ρ m' ρ' hpre hagree
  refine ⟨fun c => Cert.KernelIdeal.Arr.outarr m c, Cert.KernelIdeal.Value.run_blocks (F := Ideal) m ρ, ?_⟩
  refine (θ_run Cert.ReferenceIdeal.defs _ _).mono (fun _ h c => ⟨(h c).1.trans ?_, (h c).2⟩)
    (Cert.ReferenceIdeal.Chain.run_chain m' ρ')
  rw [(hagree c).1, (hagree c).2]
  exact (Cert.KernelIdeal.Bridge.outarr_eq_chain m c Cert.ReferenceIdeal.Chain.refEv (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
